-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S524288 : Shape := ⟨1, ![524288]⟩
abbrev S50000x256 : Shape := ⟨2, ![50000, 256]⟩
abbrev S256x256 : Shape := ⟨2, ![256, 256]⟩
abbrev S256 : Shape := ⟨1, ![256]⟩
abbrev S2x256 : Shape := ⟨2, ![2, 256]⟩
abbrev S2 : Shape := ⟨1, ![2]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S524288 : S_.BroadcastsInDim S524288 (![] : Fin 0 → Fin S524288.rank)
  reducesTo_S524288_S_d0 : S524288.ReducesTo [0] S_
  bcast_S_S50000x256 : S_.BroadcastsInDim S50000x256 (![] : Fin 0 → Fin S50000x256.rank)
  reducesTo_S50000x256_S_d0_1 : S50000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg11 : FVec F S256x256 .f32) (main_arg12 : FVec F S256 .f32) (main_arg13 : FVec F S2x256 .f32) (main_arg14 : FVec F S2 .f32) (main_v33 : IVec S_ 1) : IVec S_ 1 :=
  let main_v34 : FVec F S256x256 .f32 := Host.absf main_arg11
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S2x256 .f32 := Host.absf main_arg13
  let main_cst_16 : FVec F S_ .f32 := constant S_ .f32 0x7F800000#32
  let main_v45 : FVec F S2x256 .f32 := broadcastInDim S2x256 ![] bcast_S_S2x256 main_cst_16
  let main_v46 : IVec S2x256 1 := cmpf .olt main_v44 main_v45
  let main_c_17 : IVec S_ 1 := constantI S_ 1 1#1
  let main_v47 : IVec S_ 1 := (fun x v => Host.reduce IntOp.andi x v reducesTo_S2x256_S_d0_1 h_S_) main_v46 main_c_17
  let main_v48 : IVec S_ 1 := andi main_v43 main_v47
  let main_v49 : FVec F S2 .f32 := Host.absf main_arg14
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg8 : FVec F S256x256 .f32) (main_arg9 : FVec F S256 .f32) (main_arg10 : FVec F S256 .f32) (main_arg11 : FVec F S256x256 .f32) (main_arg12 : FVec F S256 .f32) (main_arg13 : FVec F S2x256 .f32) (main_arg14 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_v33

def fn {F : FTy → Type} [FloatOps F] (main_arg0 : IVec S800000 32) (main_arg1 : IVec S800000 32) (main_arg2 : FVec F S800000 .f32) (main_arg3 : IVec S524288 32) (main_arg4 : IVec S524288 32) (main_arg5 : FVec F S524288 .f32) (main_arg6 : FVec F S50000x256 .f32) (main_arg7 : FVec F S256x256 .f32) (main_arg8 : FVec F S256x256 .f32) (main_arg9 : FVec F S256 .f32) (main_arg10 : FVec F S256 .f32) (main_arg11 : FVec F S256x256 .f32) (main_arg12 : FVec F S256 .f32) (main_arg13 : FVec F S2x256 .f32) (main_arg14 : FVec F S2 .f32) : IVec S_ 1 :=
  let main_v0 : FVec F S800000 .f32 := Host.absf main_arg2
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S524288 .f32 := Host.absf main_arg5
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S50000x256 .f32 := Host.absf main_arg6
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S256x256 .f32 := Host.absf main_arg7
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg8 main_arg9 main_arg10 main_arg11 main_arg12 main_arg13 main_arg14 main_v13 main_v16
-- ==== Kernel.lean ====
abbrev S800000 : Shape := ⟨1, ![800000]⟩
abbrev S524288 : Shape := ⟨1, ![524288]⟩
abbrev S50000x256 : Shape := ⟨2, ![50000, 256]⟩
abbrev S256x256 : Shape := ⟨2, ![256, 256]⟩
abbrev S256 : Shape := ⟨1, ![256]⟩
abbrev S2x256 : Shape := ⟨2, ![2, 256]⟩
abbrev S2 : Shape := ⟨1, ![2]⟩
abbrev S800000x1 : Shape := ⟨2, ![800000, 1]⟩
abbrev S_ : Shape := ⟨0, ![]⟩
abbrev S800000x256 : Shape := ⟨2, ![800000, 256]⟩
abbrev S5000x256 : Shape := ⟨2, ![5000, 256]⟩
abbrev S1x256 : Shape := ⟨2, ![1, 256]⟩
abbrev S5000 : Shape := ⟨1, ![5000]⟩
abbrev S5000x1 : Shape := ⟨2, ![5000, 1]⟩
abbrev S524288x1 : Shape := ⟨2, ![524288, 1]⟩
abbrev S524288x256 : Shape := ⟨2, ![524288, 256]⟩
abbrev S16384x256 : Shape := ⟨2, ![16384, 256]⟩
abbrev S256x2 : Shape := ⟨2, ![256, 2]⟩
abbrev S1x2 : Shape := ⟨2, ![1, 2]⟩
abbrev S16384x2 : Shape := ⟨2, ![16384, 2]⟩
abbrev S4096x256 : Shape := ⟨2, ![4096, 256]⟩
abbrev S4096x2 : Shape := ⟨2, ![4096, 2]⟩

abbrev nBuf : Space → Nat
  | .hbm => 90
  | .vmem => 24
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S524288, .i32⟩
  | .hbm, ⟨4, _⟩ => ⟨S524288, .i32⟩
  | .hbm, ⟨5, _⟩ => ⟨S524288, .f32⟩
  | .hbm, ⟨6, _⟩ => ⟨S50000x256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S2x256, .f32⟩
  | .hbm, ⟨14, _⟩ => ⟨S2, .f32⟩
  | .hbm, ⟨15, _⟩ => ⟨S800000x1, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x256, .f32⟩
  | .hbm, ⟨25, _⟩ => ⟨S800000x256, .f32⟩
  | .hbm, ⟨26, _⟩ => ⟨S800000x256, .f32⟩
  | .hbm, ⟨27, _⟩ => ⟨S_, .f32⟩
  | .hbm, ⟨28, _⟩ => ⟨S50000x256, .f32⟩
  | .hbm, ⟨29, _⟩ => ⟨S800000x1, .i32⟩
  | .hbm, ⟨30, _⟩ => ⟨S50000x256, .f32⟩
  | .hbm, ⟨31, _⟩ => ⟨S256x256, .f32⟩
  | .hbm, ⟨32, _⟩ => ⟨S50000x256, .f32⟩
  | .hbm, ⟨33, _⟩ => ⟨S800000x1, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x256, .f32⟩
  | .hbm, ⟨43, _⟩ => ⟨S800000x256, .f32⟩
  | .hbm, ⟨44, _⟩ => ⟨S800000x256, .f32⟩
  | .hbm, ⟨45, _⟩ => ⟨S_, .f32⟩
  | .hbm, ⟨46, _⟩ => ⟨S50000x256, .f32⟩
  | .hbm, ⟨47, _⟩ => ⟨S800000x1, .i32⟩
  | .hbm, ⟨48, _⟩ => ⟨S50000x256, .f32⟩
  | .hbm, ⟨49, _⟩ => ⟨S256x256, .f32⟩
  | .hbm, ⟨50, _⟩ => ⟨S1x256, .f32⟩
  | .hbm, ⟨51, _⟩ => ⟨S1x256, .f32⟩
  | .hbm, ⟨52, _⟩ => ⟨S50000x256, .f32⟩
  | .hbm, ⟨53, _⟩ => ⟨S524288x1, .f32⟩
  | .hbm, ⟨54, _⟩ => ⟨S_, .i32⟩
  | .hbm, ⟨55, _⟩ => ⟨S524288, .i32⟩
  | .hbm, ⟨56, _⟩ => ⟨S524288, .i1⟩
  | .hbm, ⟨57, _⟩ => ⟨S_, .i32⟩
  | .hbm, ⟨58, _⟩ => ⟨S524288, .i32⟩
  | .hbm, ⟨59, _⟩ => ⟨S524288, .i32⟩
  | .hbm, ⟨60, _⟩ => ⟨S524288, .i32⟩
  | .hbm, ⟨61, _⟩ => ⟨S524288x1, .i32⟩
  | .hbm, ⟨62, _⟩ => ⟨S524288x256, .f32⟩
  | .hbm, ⟨63, _⟩ => ⟨S524288x256, .f32⟩
  | .hbm, ⟨64, _⟩ => ⟨S524288x256, .f32⟩
  | .hbm, ⟨65, _⟩ => ⟨S_, .f32⟩
  | .hbm, ⟨66, _⟩ => ⟨S16384x256, .f32⟩
  | .hbm, ⟨67, _⟩ => ⟨S524288x1, .i32⟩
  | .hbm, ⟨68, _⟩ => ⟨S16384x256, .f32⟩
  | .hbm, ⟨69, _⟩ => ⟨S524288x1, .f32⟩
  | .hbm, ⟨70, _⟩ => ⟨S_, .i32⟩
  | .hbm, ⟨71, _⟩ => ⟨S524288, .i32⟩
  | .hbm, ⟨72, _⟩ => ⟨S524288, .i1⟩
  | .hbm, ⟨73, _⟩ => ⟨S_, .i32⟩
  | .hbm, ⟨74, _⟩ => ⟨S524288, .i32⟩
  | .hbm, ⟨75, _⟩ => ⟨S524288, .i32⟩
  | .hbm, ⟨76, _⟩ => ⟨S524288, .i32⟩
  | .hbm, ⟨77, _⟩ => ⟨S524288x1, .i32⟩
  | .hbm, ⟨78, _⟩ => ⟨S524288x256, .f32⟩
  | .hbm, ⟨79, _⟩ => ⟨S524288x256, .f32⟩
  | .hbm, ⟨80, _⟩ => ⟨S524288x256, .f32⟩
  | .hbm, ⟨81, _⟩ => ⟨S_, .f32⟩
  | .hbm, ⟨82, _⟩ => ⟨S16384x256, .f32⟩
  | .hbm, ⟨83, _⟩ => ⟨S524288x1, .i32⟩
  | .hbm, ⟨84, _⟩ => ⟨S16384x256, .f32⟩
  | .hbm, ⟨85, _⟩ => ⟨S256x256, .f32⟩
  | .hbm, ⟨86, _⟩ => ⟨S256x2, .f32⟩
  | .hbm, ⟨87, _⟩ => ⟨S1x256, .f32⟩
  | .hbm, ⟨88, _⟩ => ⟨S1x2, .f32⟩
  | .hbm, ⟨89, _⟩ => ⟨S16384x2, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S256x256, .f32⟩
  | .local _ .vmem, ⟨10, _⟩ => ⟨S1x256, .f32⟩
  | .local _ .vmem, ⟨11, _⟩ => ⟨S1x256, .f32⟩
  | .local _ .vmem, ⟨12, _⟩ => ⟨S5000x256, .f32⟩
  | .local _ .vmem, ⟨13, _⟩ => ⟨S5000x256, .f32⟩
  | .local _ .vmem, ⟨14, _⟩ => ⟨S4096x256, .f32⟩
  | .local _ .vmem, ⟨15, _⟩ => ⟨S4096x256, .f32⟩
  | .local _ .vmem, ⟨16, _⟩ => ⟨S4096x256, .f32⟩
  | .local _ .vmem, ⟨17, _⟩ => ⟨S4096x256, .f32⟩
  | .local _ .vmem, ⟨18, _⟩ => ⟨S256x256, .f32⟩
  | .local _ .vmem, ⟨19, _⟩ => ⟨S1x256, .f32⟩
  | .local _ .vmem, ⟨20, _⟩ => ⟨S256x2, .f32⟩
  | .local _ .vmem, ⟨21, _⟩ => ⟨S1x2, .f32⟩
  | .local _ .vmem, ⟨22, _⟩ => ⟨S4096x2, .f32⟩
  | .local _ .vmem, ⟨23, _⟩ => ⟨S4096x2, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_7 : Ref sig .tc := ⟨.hbm, 70, rfl⟩
abbrev main_v46 : Ref sig .tc := ⟨.hbm, 71, rfl⟩
abbrev main_v47 : Ref sig .tc := ⟨.hbm, 72, rfl⟩
abbrev main_c_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4096x2 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  transposes_S256x256_S256x256_1_0 : S256x256.Transposes [1, 0] S256x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S1x256 : S256.ShapeCasts S1x256
  reduces_S5000x256_S5000 : S5000x256.Reduces [1] S5000
  shapeCasts_S5000_S5000x1 : S5000.ShapeCasts S5000x1
  broadcasts_S5000x1_S5000x256 : S5000x1.Broadcasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bcast_S524288_S524288x1_0 : S524288.BroadcastsInDim S524288x1 (![0] : Fin 1 → Fin S524288x1.rank)
  bcast_S_S524288 : S_.BroadcastsInDim S524288 (![] : Fin 0 → Fin S524288.rank)
  bcast_S524288x1_S524288x256_0_1 : S524288x1.BroadcastsInDim S524288x256 (![0, 1] : Fin 2 → Fin S524288x256.rank)
  bcast_S_S16384x256 : S_.BroadcastsInDim S16384x256 (![] : Fin 0 → Fin S16384x256.rank)
  transposes_S2x256_S256x2_1_0 : S2x256.Transposes [1, 0] S256x2
  shapeCasts_S2_S1x2 : S2.ShapeCasts S1x2
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  broadcasts_S1x256_S4096x256 : S1x256.Broadcasts S4096x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4096x2 : S1x2.Broadcasts S4096x2
  inb_S4096x2_S4096x2_0_0 : ∀ a, (![0, 0] : Fin 2 → Nat) a + S4096x2.size a ≤ S4096x2.size a
  h_S4096x2 : 0 < S4096x2.numel
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  gather_S50000x256_S524288x1_S524288x256_1_0_n_n_0_1_1256_wf : GatherDims.WF S50000x256 S524288x1 S524288x256 [1] [0] [] [0] [] 1 ![1, 256]
  scatter_S16384x256_S524288x1_S524288x256_1_0_0_1_wf : ScatterDims.WF S16384x256 S524288x1 S524288x256 [1] [0] [0] 1
  dot_S4096x256_S256x256_S4096x256_1_0_0_1_n_n_wf : DotDims.WF S4096x256 S256x256 S4096x256 [1] [0] [0] [1] [] []
  dot_S4096x256_S256x2_S4096x2_1_0_0_1_n_n_wf : DotDims.WF S4096x256 S256x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S16384x256.size a
  hwx2_0 : ∀ i : grid2.Coords, EltTy.bits .f32 = 32 ∨ (Rect.block (s := S16384x256) S4096x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S16384x256.size a
  hwx2_1 : ∀ i : grid2.Coords, EltTy.bits .f32 = 32 ∨ (Rect.block (s := S16384x256) S4096x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x2.size a ≤ S256x2.size a
  hwx2_4 : ∀ i : grid2.Coords, EltTy.bits .f32 = 32 ∨ (Rect.block (s := S256x2) S256x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2.size a ≤ S1x2.size a
  hwx2_5 : ∀ i : grid2.Coords, EltTy.bits .f32 = 32 ∨ (Rect.block (s := S1x2) S1x2.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4096x2.size a ≤ S16384x2.size a
  hwx2_6 : ∀ i : grid2.Coords, EltTy.bits .f32 = 32 ∨ (Rect.block (s := S16384x2) S4096x2.size (cc2_transform_6 i) (hinb2_6 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S524288x1_S524288x256_1_0_n_n_0_1_1256 : GatherDims S50000x256 S524288x1 S524288x256 where
  offsetDims := [1]
  collapsedSliceDims := [0]
  operandBatchingDims := []
  startIndicesBatchingDims := []
  startIndexMap := [0]
  indexVectorDim := 1
  sliceSizes := ![1, 256]
  wf := gather_S50000x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x2_S4096x2_1_0_0_1_n_n : DotDims S4096x256 S256x2 S4096x2 where
  lhsContracting := [1]
  rhsContracting := [0]
  lhsNonContracting := [0]
  rhsNonContracting := [1]
  lhsBatch := []
  rhsBatch := []
  wf := dot_S4096x256_S256x2_S4096x2_1_0_0_1_n_n_wf

abbrev win0_0 : Pipeline.Window sig grid0 :=
  Pipeline.Window.ofSpec (Memref.whole main_v12) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S4096x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S256x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S1x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62) S4096x2.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S800000 : Shape := ⟨1, ![800000]⟩
abbrev S524288 : Shape := ⟨1, ![524288]⟩
abbrev S50000x256 : Shape := ⟨2, ![50000, 256]⟩
abbrev S256x256 : Shape := ⟨2, ![256, 256]⟩
abbrev S256 : Shape := ⟨1, ![256]⟩
abbrev S2x256 : Shape := ⟨2, ![2, 256]⟩
abbrev S2 : Shape := ⟨1, ![2]⟩
abbrev S800000x1 : Shape := ⟨2, ![800000, 1]⟩
abbrev S_ : Shape := ⟨0, ![]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩
abbrev S524288x1 : Shape := ⟨2, ![524288, 1]⟩
abbrev S524288x256 : Shape := ⟨2, ![524288, 256]⟩
abbrev S16384x256 : Shape := ⟨2, ![16384, 256]⟩
abbrev S256x2 : Shape := ⟨2, ![256, 2]⟩
abbrev S16384x2 : Shape := ⟨2, ![16384, 2]⟩
abbrev S1x2 : Shape := ⟨2, ![1, 2]⟩

abbrev nBuf : Space → Nat
  | .hbm => 139
  | .vmem => 0
  | .smem => 0
  | _ => 0

abbrev hbmTy0_0 (i : Nat) : BufTy := match i % 128 with
  | 0 => ⟨S800000, .i32⟩
  | 1 => ⟨S800000, .i32⟩
  | 2 => ⟨S800000, .f32⟩
  | 3 => ⟨S524288, .i32⟩
  | 4 => ⟨S524288, .i32⟩
  | 5 => ⟨S524288, .f32⟩
  | 6 => ⟨S50000x256, .f32⟩
  | 7 => ⟨S256x256, .f32⟩
  | 8 => ⟨S256x256, .f32⟩
  | 9 => ⟨S256, .f32⟩
  | 10 => ⟨S256, .f32⟩
  | 11 => ⟨S256x256, .f32⟩
  | 12 => ⟨S256, .f32⟩
  | 13 => ⟨S2x256, .f32⟩
  | 14 => ⟨S2, .f32⟩
  | 15 => ⟨S800000x1, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x256, .f32⟩
  | 25 => ⟨S800000x256, .f32⟩
  | 26 => ⟨S800000x256, .f32⟩
  | 27 => ⟨S_, .f32⟩
  | 28 => ⟨S50000x256, .f32⟩
  | 29 => ⟨S800000x1, .i32⟩
  | 30 => ⟨S50000x256, .f32⟩
  | 31 => ⟨S256x256, .f32⟩
  | 32 => ⟨S50000x256, .f32⟩
  | 33 => ⟨S_, .f32⟩
  | 34 => ⟨S50000x256, .f32⟩
  | 35 => ⟨S50000x256, .f32⟩
  | 36 => ⟨S800000x1, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x256, .f32⟩
  | 46 => ⟨S800000x256, .f32⟩
  | 47 => ⟨S800000x256, .f32⟩
  | 48 => ⟨S_, .f32⟩
  | 49 => ⟨S50000x256, .f32⟩
  | 50 => ⟨S800000x1, .i32⟩
  | 51 => ⟨S50000x256, .f32⟩
  | 52 => ⟨S256x256, .f32⟩
  | 53 => ⟨S50000x256, .f32⟩
  | 54 => ⟨S_, .f32⟩
  | 55 => ⟨S50000x256, .f32⟩
  | 56 => ⟨S50000x256, .f32⟩
  | 57 => ⟨S_, .f32⟩
  | 58 => ⟨S50000x256, .f32⟩
  | 59 => ⟨S50000x256, .f32⟩
  | 60 => ⟨S_, .f32⟩
  | 61 => ⟨S50000x256, .f32⟩
  | 62 => ⟨S50000x256, .f32⟩
  | 63 => ⟨S50000x256, .f32⟩
  | 64 => ⟨S_, .f32⟩
  | 65 => ⟨S50000, .f32⟩
  | 66 => ⟨S50000x1, .f32⟩
  | 67 => ⟨S_, .f32⟩
  | 68 => ⟨S50000x1, .f32⟩
  | 69 => ⟨S50000x1, .f32⟩
  | 70 => ⟨S50000x256, .f32⟩
  | 71 => ⟨S50000x256, .f32⟩
  | 72 => ⟨S50000x256, .f32⟩
  | 73 => ⟨S_, .f32⟩
  | 74 => ⟨S50000, .f32⟩
  | 75 => ⟨S50000x1, .f32⟩
  | 76 => ⟨S_, .f32⟩
  | 77 => ⟨S50000x1, .f32⟩
  | 78 => ⟨S50000x1, .f32⟩
  | 79 => ⟨S50000x256, .f32⟩
  | 80 => ⟨S50000x256, .f32⟩
  | 81 => ⟨S_, .f32⟩
  | 82 => ⟨S50000x1, .f32⟩
  | 83 => ⟨S50000x1, .f32⟩
  | 84 => ⟨S50000x1, .f32⟩
  | 85 => ⟨S50000x256, .f32⟩
  | 86 => ⟨S50000x256, .f32⟩
  | 87 => ⟨S1x256, .f32⟩
  | 88 => ⟨S50000x256, .f32⟩
  | 89 => ⟨S50000x256, .f32⟩
  | 90 => ⟨S1x256, .f32⟩
  | 91 => ⟨S50000x256, .f32⟩
  | 92 => ⟨S50000x256, .f32⟩
  | 93 => ⟨S524288x1, .f32⟩
  | 94 => ⟨S_, .i32⟩
  | 95 => ⟨S524288, .i32⟩
  | 96 => ⟨S524288, .i1⟩
  | 97 => ⟨S_, .i32⟩
  | 98 => ⟨S524288, .i32⟩
  | 99 => ⟨S524288, .i32⟩
  | 100 => ⟨S524288, .i32⟩
  | 101 => ⟨S524288x1, .i32⟩
  | 102 => ⟨S524288x256, .f32⟩
  | 103 => ⟨S524288x256, .f32⟩
  | 104 => ⟨S524288x256, .f32⟩
  | 105 => ⟨S_, .f32⟩
  | 106 => ⟨S16384x256, .f32⟩
  | 107 => ⟨S524288x1, .i32⟩
  | 108 => ⟨S16384x256, .f32⟩
  | 109 => ⟨S524288x1, .f32⟩
  | 110 => ⟨S_, .i32⟩
  | 111 => ⟨S524288, .i32⟩
  | 112 => ⟨S524288, .i1⟩
  | 113 => ⟨S_, .i32⟩
  | 114 => ⟨S524288, .i32⟩
  | 115 => ⟨S524288, .i32⟩
  | 116 => ⟨S524288, .i32⟩
  | 117 => ⟨S524288x1, .i32⟩
  | 118 => ⟨S524288x256, .f32⟩
  | 119 => ⟨S524288x256, .f32⟩
  | 120 => ⟨S524288x256, .f32⟩
  | 121 => ⟨S_, .f32⟩
  | 122 => ⟨S16384x256, .f32⟩
  | 123 => ⟨S524288x1, .i32⟩
  | 124 => ⟨S16384x256, .f32⟩
  | 125 => ⟨S16384x256, .f32⟩
  | 126 => ⟨S256x256, .f32⟩
  | 127 => ⟨S16384x256, .f32⟩
  | _ => ⟨S800000, .i32⟩

abbrev hbmTy0_1 (i : Nat) : BufTy := match i % 128 with
  | 0 => ⟨S1x256, .f32⟩
  | 1 => ⟨S16384x256, .f32⟩
  | 2 => ⟨S16384x256, .f32⟩
  | 3 => ⟨S_, .f32⟩
  | 4 => ⟨S16384x256, .f32⟩
  | 5 => ⟨S16384x256, .f32⟩
  | 6 => ⟨S256x2, .f32⟩
  | 7 => ⟨S16384x2, .f32⟩
  | 8 => ⟨S1x2, .f32⟩
  | 9 => ⟨S16384x2, .f32⟩
  | 10 => ⟨S16384x2, .f32⟩
  | _ => ⟨S800000, .i32⟩

abbrev hbmTy (i : Nat) : BufTy := match i / 128 with
  | 0 => hbmTy0_0 i
  | 1 => hbmTy0_1 i
  | _ => ⟨S800000, .i32⟩

abbrev bufTy : (tb : Table) → Fin (tcTables nBuf tb) → BufTy
  | .hbm, ⟨i, _⟩ => hbmTy i
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call0_cst : Ref sig .tc := ⟨.hbm, 33, rfl⟩
abbrev main_call0_v0 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_cst : Ref sig .tc := ⟨.hbm, 54, rfl⟩
abbrev main_call1_v0 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_11 : Ref sig .tc := ⟨.hbm, 94, rfl⟩
abbrev main_v62 : Ref sig .tc := ⟨.hbm, 95, rfl⟩
abbrev main_v63 : Ref sig .tc := ⟨.hbm, 96, rfl⟩
abbrev main_c_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_14 : Ref sig .tc := ⟨.hbm, 110, rfl⟩
abbrev main_v75 : Ref sig .tc := ⟨.hbm, 111, rfl⟩
abbrev main_v76 : Ref sig .tc := ⟨.hbm, 112, rfl⟩
abbrev main_c_15 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_16 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_call2_cst : Ref sig .tc := ⟨.hbm, 131, rfl⟩
abbrev main_call2_v0 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  transposes_S256x256_S256x256_1_0 : S256x256.Transposes [1, 0] S256x256
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S524288_S524288x1_0 : S524288.BroadcastsInDim S524288x1 (![0] : Fin 1 → Fin S524288x1.rank)
  bcast_S_S524288 : S_.BroadcastsInDim S524288 (![] : Fin 0 → Fin S524288.rank)
  bcast_S524288x1_S524288x256_0_1 : S524288x1.BroadcastsInDim S524288x256 (![0, 1] : Fin 2 → Fin S524288x256.rank)
  bcast_S_S16384x256 : S_.BroadcastsInDim S16384x256 (![] : Fin 0 → Fin S16384x256.rank)
  bcast_S1x256_S16384x256_0_1 : S1x256.BroadcastsInDim S16384x256 (![0, 1] : Fin 2 → Fin S16384x256.rank)
  transposes_S2x256_S256x2_1_0 : S2x256.Transposes [1, 0] S256x2
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  gather_S50000x256_S524288x1_S524288x256_1_0_n_n_0_1_1256_wf : GatherDims.WF S50000x256 S524288x1 S524288x256 [1] [0] [] [0] [] 1 ![1, 256]
  scatter_S16384x256_S524288x1_S524288x256_1_0_0_1_wf : ScatterDims.WF S16384x256 S524288x1 S524288x256 [1] [0] [0] 1
  dot_S16384x256_S256x256_S16384x256_1_0_0_1_n_n_wf : DotDims.WF S16384x256 S256x256 S16384x256 [1] [0] [0] [1] [] []
  dot_S16384x256_S256x2_S16384x2_1_0_0_1_n_n_wf : DotDims.WF S16384x256 S256x2 S16384x2 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S524288x1_S524288x256_1_0_n_n_0_1_1256 : GatherDims S50000x256 S524288x1 S524288x256 where
  offsetDims := [1]
  collapsedSliceDims := [0]
  operandBatchingDims := []
  startIndicesBatchingDims := []
  startIndexMap := [0]
  indexVectorDim := 1
  sliceSizes := ![1, 256]
  wf := gather_S50000x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x2_S16384x2_1_0_0_1_n_n : DotDims S16384x256 S256x2 S16384x2 where
  lhsContracting := [1]
  rhsContracting := [0]
  lhsNonContracting := [0]
  rhsNonContracting := [1]
  lhsBatch := []
  rhsBatch := []
  wf := dot_S16384x256_S256x2_S16384x2_1_0_0_1_n_n_wf

class Facts : Prop extends Facts₀ where

variable [Facts]
-- ==== Proof.Layers.lean ====
/-
  The dense layers of the word-graph network and its sparse products, each as ONE function of whole arrays over the
  extended reals, written with the host operations the reference applies.

  * `spmmWord rows cols vals H`: the sparse [50000, 50000] matrix with entries `vals` at `(rows, cols)` applied to the
    [50000, 256] array `H`: every edge gathers row `cols e` of `H` (a negative column index is wrapped once by the row
    count), scales it by `vals e`, and adds it into row `rows e` of a zero array. `spmmDoc` is the same for the
    [16384, 50000] document matrix over 524288 entries.
  * `linRelu A Wt = max(A · Wt, 0)`.
  * `residLn A h0 Wt g b`: with `h = 0.3·h0 + 0.7·max(A · Wt, 0)`, the layer normalisation of every row of `h`
    (mean and variance over its 256 entries, the small constant added under the reciprocal root), scaled by `g` and
    shifted by `b` along the columns.
  * `mlpCls d1 d2 Wt b cWt cb = max((d1 + d2) · Wt + b, 0) · cWt + cb`.
  * `model`: the whole network, the layers composed.
-/
import proofs.«163003_j41652592836980_1_alg».proof.Proof.Gen.ReferenceIdeal
import Idealize.ShloMosaic.PureOps.Ideal

noncomputable section

namespace Cert.Layers

open Cert.ReferenceIdeal Cert.ReferenceIdeal.Gen Idealize.ShloMosaic Idealize.ShloMosaic.TcCoe

/-- An `f32` array of shape `s` over the extended reals. -/
abbrev FA (s : Shape) := FVec Ideal s .f32
/-- An `i32` array of shape `s`. -/
abbrev IA (s : Shape) := IVec s 32

/-- The word graph's sparse product: gather, scale, add into rows. -/
def spmmWord (rows cols : IA S800000) (vals : FA S800000) (H : FA S50000x256) : FA S50000x256 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 rows)
    (mulf (broadcastInDim S800000x256 ![0, 1] bcast_S800000x1_S800000x256_0_1 (broadcastInDim S800000x1 ![0] bcast_S800000_S800000x1_0 vals))
      (Host.gather gather_S50000x256_S800000x1_S800000x256_1_0_n_n_0_1_1256 H
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols))))

/-- The document matrix's sparse product: gather, scale, add into rows. -/
def spmmDoc (rows cols : IA S524288) (vals : FA S524288) (H : FA S50000x256) : FA S16384x256 :=
  Host.scatterAdd scatter_S16384x256_S524288x1_S524288x256_1_0_0_1
    (broadcastInDim S16384x256 ![] bcast_S_S16384x256 (constant S_ .f32 0x00000000#32))
    (broadcastInDim S524288x1 ![0] bcast_S524288_S524288x1_0 rows)
    (mulf (broadcastInDim S524288x256 ![0, 1] bcast_S524288x1_S524288x256_0_1 (broadcastInDim S524288x1 ![0] bcast_S524288_S524288x1_0 vals))
      (Host.gather gather_S50000x256_S524288x1_S524288x256_1_0_n_n_0_1_1256 H
        (broadcastInDim S524288x1 ![0] bcast_S524288_S524288x1_0
          (select (cmpi .slt cols (broadcastInDim S524288 ![] bcast_S_S524288 (constantI S_ 32 0#32)))
            (addi cols (broadcastInDim S524288 ![] bcast_S_S524288 (constantI S_ 32 50000#32))) cols))))

/-- `max(A · Wt, 0)` on [50000, 256]. -/
def linRelu (A : FA S50000x256) (Wt : FA S256x256) : FA S50000x256 :=
  maximumf (Host.dotGeneral dot_S50000x256_S256x256_S50000x256_1_0_0_1_n_n none A Wt)
    (broadcastInDim S50000x256 ![] bcast_S_S50000x256 (constant S_ .f32 0x00000000#32))

/-- The residual mix `0.3·h0 + 0.7·max(A · Wt, 0)` (the two float literals as the programs spell them). -/
def residMix (A h0 : FA S50000x256) (Wt : FA S256x256) : FA S50000x256 :=
  addf (mulf (broadcastInDim S50000x256 ![] bcast_S_S50000x256 (constant S_ .f32 0x3E99999A#32)) h0)
    (mulf (broadcastInDim S50000x256 ![] bcast_S_S50000x256 (constant S_ .f32 0x3F333333#32)) (linRelu A Wt))

/-- A row's sum over its 256 entries divided by 256, kept as a column. -/
def rowMean (h : FA S50000x256) : FA S50000x1 :=
  Host.divf (broadcastInDim S50000x1 ![0] bcast_S50000_S50000x1_0
      (Host.reduceAdd h (constant S_ .f32 0x00000000#32) reducesTo_S50000x256_S50000_d1 h_S_))
    (broadcastInDim S50000x1 ![] bcast_S_S50000x1 (constant S_ .f32 0x43800000#32))

/-- Every entry less its row's mean. -/
def centred (h : FA S50000x256) : FA S50000x256 :=
  subf h (broadcastInDim S50000x256 ![0, 1] bcast_S50000x1_S50000x256_0_1 (rowMean h))

/-- The layer normalisation of every row of `h`, scaled by `g` and shifted by `b` along the columns. -/
def layerNorm (h : FA S50000x256) (g b : FA S256) : FA S50000x256 :=
  addf (mulf (mulf (centred h)
        (broadcastInDim S50000x256 ![0, 1] bcast_S50000x1_S50000x256_0_1
          (Host.rsqrt (addf (rowMean (mulf (centred h) (centred h)))
            (broadcastInDim S50000x1 ![] bcast_S_S50000x1 (constant S_ .f32 0x3727C5AC#32))))))
      (broadcastInDim S50000x256 ![0, 1] bcast_S1x256_S50000x256_0_1 (broadcastInDim S1x256 ![1] bcast_S256_S1x256_1 g)))
    (broadcastInDim S50000x256 ![0, 1] bcast_S1x256_S50000x256_0_1 (broadcastInDim S1x256 ![1] bcast_S256_S1x256_1 b))

/-- The second word layer: residual mix, then layer normalisation. -/
def residLn (A h0 : FA S50000x256) (Wt : FA S256x256) (g b : FA S256) : FA S50000x256 :=
  layerNorm (residMix A h0 Wt) g b

/-- The document head: `max((d1 + d2) · Wt + b, 0) · cWt + cb`. -/
def mlpCls (d1 d2 : FA S16384x256) (Wt : FA S256x256) (b : FA S256) (cWt : FA S256x2) (cb : FA S2) : FA S16384x2 :=
  addf (Host.dotGeneral dot_S16384x256_S256x2_S16384x2_1_0_0_1_n_n none
      (maximumf (addf (Host.dotGeneral dot_S16384x256_S256x256_S16384x256_1_0_0_1_n_n none (addf d1 d2) Wt)
          (broadcastInDim S16384x256 ![0, 1] bcast_S1x256_S16384x256_0_1 (broadcastInDim S1x256 ![1] bcast_S256_S1x256_1 b)))
        (broadcastInDim S16384x256 ![] bcast_S_S16384x256 (constant S_ .f32 0x00000000#32)))
      cWt)
    (broadcastInDim S16384x2 ![0, 1] bcast_S1x2_S16384x2_0_1 (broadcastInDim S1x2 ![1] bcast_S2_S1x2_1 cb))

/-- The whole network as one function of its fifteen inputs. -/
def model (a0 a1 : IA S800000) (a2 : FA S800000) (a3 a4 : IA S524288) (a5 : FA S524288) (a6 : FA S50000x256)
    (a7 a8 : FA S256x256) (a9 a10 : FA S256) (a11 : FA S256x256) (a12 : FA S256) (a13 : FA S2x256) (a14 : FA S2) : FA S16384x2 :=
  mlpCls
    (spmmDoc a3 a4 a5
      (residLn (spmmWord a0 a1 a2 (linRelu (spmmWord a0 a1 a2 a6) (transpose S256x256 [1, 0] a7 transposes_S256x256_S256x256_1_0)))
        a6 (transpose S256x256 [1, 0] a8 transposes_S256x256_S256x256_1_0) a9 a10))
    (spmmDoc a3 a4 a5 a6)
    (transpose S256x256 [1, 0] a11 transposes_S256x256_S256x256_1_0) a12
    (transpose S256x2 [1, 0] a13 transposes_S2x256_S256x2_1_0) a14

end Cert.Layers

end
-- ==== Proof.KHost.lean ====
/-
  What each region of the network finds in its input windows, as a function of the launch memory.

  Between the launch and region 0, between regions 0 and 1, and between regions 1 and 2 the program runs a straight line
  of whole-array operations. A buffer's contents at a region's entry are therefore a fold of those operations over the
  contents at the previous boundary. Read at the buffer an operation writes, the fold is that operation's function of
  the fold at its operands; read at a buffer that no operation of the stretch writes, it is the previous boundary's
  contents, and a buffer that no earlier stretch writes and no earlier region produces still holds the launch memory.
  Unwinding the fold this way gives, for every input window of every region, one closed expression:

  * the word graph's sparse product (gather the rows named by the column indices, a negative index wrapped once by the
    row count; scale each by its value; add into the rows of a zero array named by the row indices) of the embedding
    table (region 0) or of region 0's output (region 1); the document matrix's sparse product of region 1's output
    and of the embedding table (region 2);
  * a weight matrix transposed;
  * a vector of length n as one row: the reshape [n] → [1, n] has the vector's entry j at (0, j), which is the
    vector broadcast along the column axis;
  * the embedding table itself: an input of region 1, which reads it and never writes it back.
-/
import proofs.«163003_j41652592836980_1_alg».proof.Proof.Gen.KernelIdeal.Frame
import proofs.«163003_j41652592836980_1_alg».proof.Proof.Layers
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostRead

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The references the first two host stretches write. -/
private def wr0 : List (Ref sig .tc) :=
  [main_v0, main_c, main_v1, main_v2, main_c_0, main_v3, main_v4, main_v5, main_v6, main_v7, main_v8, main_v9, main_cst,
   main_v10, main_v11, main_v12, main_v13]
private def wr1 : List (Ref sig .tc) :=
  [main_v15, main_c_1, main_v16, main_v17, main_c_2, main_v18, main_v19, main_v20, main_v21, main_v22, main_v23, main_v24,
   main_cst_3, main_v25, main_v26, main_v27, main_v28, main_v29, main_v30]

private theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Every operation of a stretch writes one buffer, and it is on the stretch's list. -/
private theorem wr0_sub : (hostOps0 : List (HloOp τ sig (Elt Ideal))).Forall fun op => op.writes ⊆ (wr0.map (Proc.devRef (τ := τ) .tc)).toFinset := by
  simp only [hostOps0, List.Forall, nullary_writes, unary_writes, binary_writes, ternary_writes, reshape_writes]
  repeat' apply And.intro
  all_goals exact single_sub_of_mem (by decide)
private theorem wr1_sub : (hostOps1 : List (HloOp τ sig (Elt Ideal))).Forall fun op => op.writes ⊆ (wr1.map (Proc.devRef (τ := τ) .tc)).toFinset := by
  simp only [hostOps1, List.Forall, nullary_writes, unary_writes, binary_writes, ternary_writes, reshape_writes]
  repeat' apply And.intro
  all_goals exact single_sub_of_mem (by decide)

/-- A buffer that neither the first stretch writes nor region 0 has for a window holds at region 0's exit what the
    launch gave it. -/
private theorem W2_arg (c : Dev nD) (r : Ref sig .tc) (h0 : r ∉ wr0) (hw0 : ∀ w, Pipeline.arrRef spec0 w ≠ r) :
    W2 m ρ c (Proc.devRef .tc r) = m ((c : Thread nD τ).loc r) :=
  (W2_of_ne m ρ c r hw0).trans (after_of_writes_sub hostOps0 (W0 m ρ c) wr0_sub h0)

/-- If the second stretch does not write it either, it still does at region 1's entry. -/
private theorem W3_arg (c : Dev nD) (r : Ref sig .tc) (h0 : r ∉ wr0) (hw0 : ∀ w, Pipeline.arrRef spec0 w ≠ r) (h1 : r ∉ wr1) :
    W3 m ρ c (Proc.devRef .tc r) = m ((c : Thread nD τ).loc r) :=
  (after_of_writes_sub hostOps1 (W2 m ρ c) wr1_sub h1).trans (W2_arg m ρ c r h0 hw0)

/-- And at region 1's exit, when region 1 has no window on it. -/
private theorem W4_arg (c : Dev nD) (r : Ref sig .tc) (h0 : r ∉ wr0) (hw0 : ∀ w, Pipeline.arrRef spec0 w ≠ r) (h1 : r ∉ wr1)
    (hw1 : ∀ w, Pipeline.arrRef spec1 w ≠ r) :
    W4 m ρ c (Proc.devRef .tc r) = m ((c : Thread nD τ).loc r) :=
  (W4_of_ne m ρ c r hw1).trans (W3_arg m ρ c r h0 hw0 h1)

/-- The embedding table is an input window of region 1: the region never writes it back, so at the region's exit it
    is what it was at the entry, the launch memory. -/
private theorem W4_arg6 (c : Dev nD) : W4 m ρ c (Proc.devRef .tc main_arg6) = m ((c : Thread nD τ).loc main_arg6) := by
  have h := W4_arr m ρ c (1 : Fin 6)
  rw [(dat1 (V3 m ρ) c).arrAt_in (1 : Fin 6) (by decide), A_eq1] at h
  exact h.trans (W3_arg m ρ c main_arg6 (by decide) (by decide) (by decide))

/-- A vector of length `n` reshaped to one row of `n` entries holds, at column `j`, the vector's entry `j`: it is the
    vector broadcast along the column axis. -/
private theorem row_of_vec {α : Type} {n : Nat} (hn : n ≠ 1) (x : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    (fun i => shapeCast ⟨2, ![1, n]⟩ x hc i) = broadcastInDim ⟨2, ![1, n]⟩ ![1] hb x := by
  funext i
  let k : (⟨1, ![n]⟩ : Shape).Idx := fun a => match a with | ⟨0, _⟩ => ⟨(i 1).val, (i 1).isLt⟩
  have h0 : (i 0).val = 0 := Nat.lt_one_iff.mp (i 0).isLt
  rw [shapeCast_apply x hc i k (by
        rw [Shape.rowMajor_val_one, Shape.rowMajor_val_two, h0, Nat.zero_mul, Nat.zero_add]
        rfl),
      broadcastInDim_apply _ hb x i k (fun a => match a with
        | ⟨0, _⟩ => by show (i 1).val = if n = 1 then 0 else (i 1).val; rw [if_neg hn])]

/-! ## What each region finds in its input windows: the host stretch before it, read back to the launch memory -/

/-- Region 0's first window: the word graph's sparse product of the embedding table. -/
theorem V1_v12 (c : Dev nD) : V1 m ρ c main_v12
    = Cert.Layers.spmmWord (m ((c : Thread nD τ).loc main_arg0)) (m ((c : Thread nD τ).loc main_arg1)) (m ((c : Thread nD τ).loc main_arg2)) (m ((c : Thread nD τ).loc main_arg6)) := by
  show StableHlo.after hostOps0 (W0 m ρ c) (Proc.devRef .tc main_v12) = _
  simp only [hostOps0]
  after_results_simp
  unfold Cert.Layers.spmmWord
  rfl
/-- Region 0's second window: `W1` transposed. -/
theorem V1_v13 (c : Dev nD) : V1 m ρ c main_v13
    = transpose Cert.ReferenceIdeal.S256x256 [1, 0] (m ((c : Thread nD τ).loc main_arg7)) Cert.ReferenceIdeal.Gen.transposes_S256x256_S256x256_1_0 := by
  show StableHlo.after hostOps0 (W0 m ρ c) (Proc.devRef .tc main_v13) = _
  simp only [hostOps0]
  after_results_simp

/-- Region 1's first window: the sparse product of region 0's output array. -/
theorem V3_v27 (c : Dev nD) : V3 m ρ c main_v27
    = Cert.Layers.spmmWord (m ((c : Thread nD τ).loc main_arg0)) (m ((c : Thread nD τ).loc main_arg1)) (m ((c : Thread nD τ).loc main_arg2)) (W2 m ρ c (Proc.devRef .tc main_v14)) := by
  show StableHlo.after hostOps1 (W2 m ρ c) (Proc.devRef .tc main_v27) = _
  simp only [hostOps1]
  after_results_simp
  rw [W2_arg m ρ c main_arg0 (by decide) (by decide), W2_arg m ρ c main_arg1 (by decide) (by decide),
    W2_arg m ρ c main_arg2 (by decide) (by decide)]
  unfold Cert.Layers.spmmWord
  rfl
/-- Region 1's second window: the embedding table as launched. -/
theorem V3_arg6 (c : Dev nD) : V3 m ρ c main_arg6 = m ((c : Thread nD τ).loc main_arg6) := by
  exact W3_arg m ρ c main_arg6 (by decide) (by decide) (by decide)
/-- Region 1's third window: `W2` transposed. -/
theorem V3_v28 (c : Dev nD) : V3 m ρ c main_v28
    = transpose Cert.ReferenceIdeal.S256x256 [1, 0] (m ((c : Thread nD τ).loc main_arg8)) Cert.ReferenceIdeal.Gen.transposes_S256x256_S256x256_1_0 := by
  show StableHlo.after hostOps1 (W2 m ρ c) (Proc.devRef .tc main_v28) = _
  simp only [hostOps1]
  after_results_simp
  rw [W2_arg m ρ c main_arg8 (by decide) (by decide)]
/-- Region 1's fourth window: the scale vector as one row. -/
theorem V3_v29 (c : Dev nD) : V3 m ρ c main_v29
    = broadcastInDim Cert.ReferenceIdeal.S1x256 ![1] Cert.ReferenceIdeal.Gen.bcast_S256_S1x256_1 (m ((c : Thread nD τ).loc main_arg9)) := by
  show StableHlo.after hostOps1 (W2 m ρ c) (Proc.devRef .tc main_v29) = _
  simp only [hostOps1]
  after_results_simp
  rw [W2_arg m ρ c main_arg9 (by decide) (by decide)]
  exact row_of_vec (by decide) _ _ _
/-- Region 1's fifth window: the shift vector as one row. -/
theorem V3_v30 (c : Dev nD) : V3 m ρ c main_v30
    = broadcastInDim Cert.ReferenceIdeal.S1x256 ![1] Cert.ReferenceIdeal.Gen.bcast_S256_S1x256_1 (m ((c : Thread nD τ).loc main_arg10)) := by
  show StableHlo.after hostOps1 (W2 m ρ c) (Proc.devRef .tc main_v30) = _
  simp only [hostOps1]
  after_results_simp
  rw [W2_arg m ρ c main_arg10 (by decide) (by decide)]
  exact row_of_vec (by decide) _ _ _

/-- Region 2's first window: the document matrix's sparse product of region 1's output array. -/
theorem V5_v44 (c : Dev nD) : V5 m ρ c main_v44
    = Cert.Layers.spmmDoc (m ((c : Thread nD τ).loc main_arg3)) (m ((c : Thread nD τ).loc main_arg4)) (m ((c : Thread nD τ).loc main_arg5)) (W4 m ρ c (Proc.devRef .tc main_v31)) := by
  show StableHlo.after hostOps2 (W4 m ρ c) (Proc.devRef .tc main_v44) = _
  simp only [hostOps2]
  after_results_simp
  rw [W4_arg m ρ c main_arg3 (by decide) (by decide) (by decide) (by decide),
    W4_arg m ρ c main_arg4 (by decide) (by decide) (by decide) (by decide),
    W4_arg m ρ c main_arg5 (by decide) (by decide) (by decide) (by decide)]
  unfold Cert.Layers.spmmDoc
  rfl
/-- Region 2's second window: the document matrix's sparse product of the embedding table. -/
theorem V5_v57 (c : Dev nD) : V5 m ρ c main_v57
    = Cert.Layers.spmmDoc (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v57) = _
  simp only [hostOps2]
  after_results_simp
  rw [W4_arg m ρ c main_arg3 (by decide) (by decide) (by decide) (by decide),
    W4_arg m ρ c main_arg4 (by decide) (by decide) (by decide) (by decide),
    W4_arg m ρ c main_arg5 (by decide) (by decide) (by decide) (by decide), W4_arg6 m ρ c]
  unfold Cert.Layers.spmmDoc
  rfl
/-- Region 2's third window: the hidden layer's weight transposed. -/
theorem V5_v58 (c : Dev nD) : V5 m ρ c main_v58
    = transpose Cert.ReferenceIdeal.S256x256 [1, 0] (m ((c : Thread nD τ).loc main_arg11)) Cert.ReferenceIdeal.Gen.transposes_S256x256_S256x256_1_0 := by
  show StableHlo.after hostOps2 (W4 m ρ c) (Proc.devRef .tc main_v58) = _
  simp only [hostOps2]
  after_results_simp
  rw [W4_arg m ρ c main_arg11 (by decide) (by decide) (by decide) (by decide)]
/-- Region 2's fourth window: the hidden layer's bias as one row. -/
theorem V5_v60 (c : Dev nD) : V5 m ρ c main_v60
    = broadcastInDim Cert.ReferenceIdeal.S1x256 ![1] Cert.ReferenceIdeal.Gen.bcast_S256_S1x256_1 (m ((c : Thread nD τ).loc main_arg12)) := by
  show StableHlo.after hostOps2 (W4 m ρ c) (Proc.devRef .tc main_v60) = _
  simp only [hostOps2]
  after_results_simp
  rw [W4_arg m ρ c main_arg12 (by decide) (by decide) (by decide) (by decide)]
  exact row_of_vec (by decide) _ _ _
/-- Region 2's fifth window: the classifier's weight transposed. -/
theorem V5_v59 (c : Dev nD) : V5 m ρ c main_v59
    = transpose Cert.ReferenceIdeal.S256x2 [1, 0] (m ((c : Thread nD τ).loc main_arg13)) Cert.ReferenceIdeal.Gen.transposes_S2x256_S256x2_1_0 := by
  show StableHlo.after hostOps2 (W4 m ρ c) (Proc.devRef .tc main_v59) = _
  simp only [hostOps2]
  after_results_simp
  rw [W4_arg m ρ c main_arg13 (by decide) (by decide) (by decide) (by decide)]
/-- Region 2's sixth window: the classifier's bias as one row. -/
theorem V5_v61 (c : Dev nD) : V5 m ρ c main_v61
    = broadcastInDim Cert.ReferenceIdeal.S1x2 ![1] Cert.ReferenceIdeal.Gen.bcast_S2_S1x2_1 (m ((c : Thread nD τ).loc main_arg14)) := by
  show StableHlo.after hostOps2 (W4 m ρ c) (Proc.devRef .tc main_v61) = _
  simp only [hostOps2]
  after_results_simp
  rw [W4_arg m ρ c main_arg14 (by decide) (by decide) (by decide) (by decide)]
  exact row_of_vec (by decide) _ _ _

end Cert.KernelIdeal.HostRead

end
-- ==== Proof.Rows.lean ====
/-
  One row of the network's dense layers over the extended reals, as plain formulas on a row's 256 entries: the
  rectified dot product, the residual mix, the mean over 256 entries, and the layer normalisation of a row.
  The float literals are the patterns the two programs spell (zero, 0.3, 0.7, 256, 1e-5 as binary32 words).
-/
import Idealize.ShloMosaic.PureOps.Ideal

noncomputable section

open scoped BigOperators

namespace Cert.Rows

open Idealize.ShloMosaic

/-- `max(∑ₖ aₖ·wₖ, 0)`: a row of the left factor against a column of the right one, rectified. -/
def reluDot (a w : Fin 256 → EReal) : EReal :=
  max (∑ k : Fin 256, a k * w k) (Ideal.ofBits .f32 0x00000000#32)

/-- The residual mix `0.3·x + 0.7·y` (the literals as binary32 patterns). -/
def mix (x y : EReal) : EReal :=
  Ideal.ofBits .f32 0x3E99999A#32 * x + Ideal.ofBits .f32 0x3F333333#32 * y

/-- The sum of a row's 256 entries divided by 256. -/
def mean (h : Fin 256 → EReal) : EReal :=
  Ideal.div (∑ k : Fin 256, h k) (Ideal.ofBits .f32 0x43800000#32)

/-- Entry `j` of the layer normalisation of the row `h`, scaled by `g` and shifted by `b`: the entry less the row's
    mean, times the reciprocal root of the row's variance plus the small constant, times `g j`, plus `b j`. -/
def lnAt (h g b : Fin 256 → EReal) (j : Fin 256) : EReal :=
  (h j - mean h) * Ideal.rsqrt (mean (fun k => (h k - mean h) * (h k - mean h)) + Ideal.ofBits .f32 0x3727C5AC#32) * g j + b j

end Cert.Rows

end
-- ==== Proof.Region0.lean ====
/-
  The first word layer's region, read as one array: the region's grid has ten points, point t holding rows
  5000·t … 5000·t + 4999 of the left factor A (all 256 columns), the whole 256 × 256 right factor Wt at every
  point, and writing rows 5000·t … 5000·t + 4999 of the output. Over the extended reals the narrowing of the
  two operands to the short float format is the identity, and the body's product onto a zero accumulator is the
  plain sum, so entry (p, j) of what a point writes is  max(∑ₖ x(p, k)·w(k, j), 0)  of its two blocks x and w.
  Entry (r, j) of the whole-array layer  max(A · Wt, 0)  is  max(∑ₖ A(r, k)·Wt(k, j), 0).  The block of point t
  reads A at row 5000·t + p, so what point t writes is rows 5000·t … of that whole-array layer; row r lies in the
  block of point r / 5000, so the ten blocks cover the array, and the array after the region is the layer.
-/
import proofs.«163003_j41652592836980_1_alg».proof.Proof.Gen.KernelIdeal.Frame
import proofs.«163003_j41652592836980_1_alg».proof.Proof.Layers
import proofs.«163003_j41652592836980_1_alg».proof.Proof.Rows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The two contractions' operand indices, axis by axis

For a product of a [rows, 256] array with a [256, 256] array contracting the left's columns with the right's rows,
the left operand is read at (row of the output, contraction coordinate) and the right at (contraction coordinate,
column of the output). -/

private theorem refDot_lhs_0 (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x256_S50000x256_1_0_0_1_n_n.lhsBatch by decide), dif_pos (show (0 : Fin Cert.ReferenceIdeal.S50000x256.rank) ∈ Cert.ReferenceIdeal.dot_S50000x256_S256x256_S50000x256_1_0_0_1_n_n.lhsNonContracting by decide)]
  rfl
private theorem refDot_lhs_1 (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 1).val = (q ⟨0, by decide⟩).val :=
  Cert.ReferenceIdeal.dot_S50000x256_S256x256_S50000x256_1_0_0_1_n_n.lhsIdx_val_of_single rfl i q
private theorem refDot_rhs_0 (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 0).val = (q ⟨0, by decide⟩).val :=
  Cert.ReferenceIdeal.dot_S50000x256_S256x256_S50000x256_1_0_0_1_n_n.rhsIdx_val_of_single rfl i q
private theorem refDot_rhs_1 (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 1).val = (i 1).val := by
  unfold DotDims.rhsIdx
  rw [dif_neg (show ¬(1 : Fin Cert.ReferenceIdeal.S256x256.rank) ∈ Cert.ReferenceIdeal.dot_S50000x256_S256x256_S50000x256_1_0_0_1_n_n.rhsBatch by decide), dif_pos (show (1 : Fin Cert.ReferenceIdeal.S256x256.rank) ∈ Cert.ReferenceIdeal.dot_S50000x256_S256x256_S50000x256_1_0_0_1_n_n.rhsNonContracting by decide)]
  rfl

private theorem kerDot_lhs_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
private theorem kerDot_lhs_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
private theorem kerDot_rhs_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
private theorem kerDot_rhs_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-! ## The whole-array layer at an entry -/

/-- Entry (r, j) of the host's product A · Wt is ∑ₖ A(r, k)·Wt(k, j). -/
private theorem refDot_apply (A : Cert.Layers.FA Cert.ReferenceIdeal.S50000x256) (Wt : Cert.Layers.FA Cert.ReferenceIdeal.S256x256) (r : Fin 50000) (j : Fin 256) :
    Host.dotGeneral Cert.ReferenceIdeal.dot_S50000x256_S256x256_S50000x256_1_0_0_1_n_n none A Wt (ix2 r j) = ∑ k : Fin 256, A (ix2 r k) * Wt (ix2 k j) := by
  simp only [Host.dotGeneral]
  rw [Ideal.dotGeneral_apply, ← Equiv.sum_comp (ValueIdx.contrEquiv1 Cert.ReferenceIdeal.dot_S50000x256_S256x256_S50000x256_1_0_0_1_n_n 256 rfl rfl).symm]
  refine Finset.sum_congr rfl fun k _ => ?_
  have hk := ValueIdx.contrEquiv1_symm_val Cert.ReferenceIdeal.dot_S50000x256_S256x256_S50000x256_1_0_0_1_n_n 256 rfl rfl k
  have el : Cert.ReferenceIdeal.dot_S50000x256_S256x256_S50000x256_1_0_0_1_n_n.lhsIdx (ix2 r j) ((ValueIdx.contrEquiv1 Cert.ReferenceIdeal.dot_S50000x256_S256x256_S50000x256_1_0_0_1_n_n 256 rfl rfl).symm k) = ix2 r k := funext fun a => Fin.ext (by
    match a with
    | ⟨0, _⟩ => exact refDot_lhs_0 _ _
    | ⟨1, _⟩ => exact (refDot_lhs_1 _ _).trans hk)
  have er : Cert.ReferenceIdeal.dot_S50000x256_S256x256_S50000x256_1_0_0_1_n_n.rhsIdx (ix2 r j) ((ValueIdx.contrEquiv1 Cert.ReferenceIdeal.dot_S50000x256_S256x256_S50000x256_1_0_0_1_n_n 256 rfl rfl).symm k) = ix2 k j := funext fun a => Fin.ext (by
    match a with
    | ⟨0, _⟩ => exact (refDot_rhs_0 _ _).trans hk
    | ⟨1, _⟩ => exact refDot_rhs_1 _ _)
  rw [el, er]

/-- Entry (r, j) of max(A · Wt, 0) is the rectified dot product of row r of A with column j of Wt. -/
private theorem linRelu_apply (A : Cert.Layers.FA Cert.ReferenceIdeal.S50000x256) (Wt : Cert.Layers.FA Cert.ReferenceIdeal.S256x256) (r : Fin 50000) (j : Fin 256) :
    Cert.Layers.linRelu A Wt (ix2 r j) = Cert.Rows.reluDot (fun k => A (ix2 r k)) (fun k => Wt (ix2 k j)) := by
  unfold Cert.Layers.linRelu Cert.Rows.reluDot
  refine (maximumf_apply _ _ _).trans ?_
  rw [refDot_apply]
  rfl

/-! ## What the body stores, at an entry -/

/-- Entry (p, j) of the body's product of a [5000, 256] block with the [256, 256] block onto a zero accumulator
    is ∑ₖ a(p, k)·w(k, j). -/
private theorem kerDot_apply (a : FVec Ideal S5000x256 .bf16) (w : FVec Ideal S256x256 .bf16) (p : Fin 5000) (j : Fin 256) :
    matmul dot_S5000x256_S256x256_S5000x256_1_0_0_1_n_n none a w (constant S5000x256 .f32 0x00000000#32) (ix2 p j) = ∑ k : Fin 256, a (ix2 p k) * w (ix2 k j) := by
  refine (Ideal.matmul_constant_zero_apply dot_S5000x256_S256x256_S5000x256_1_0_0_1_n_n none a w (ix2 p j)).trans ?_
  rw [← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 p j) ((ValueIdx.contrEquiv1 dot_S5000x256_S256x256_S5000x256_1_0_0_1_n_n 256 rfl rfl).symm k) = ix2 p k := funext fun a => Fin.ext (by
    match a with
    | ⟨0, _⟩ => exact kerDot_lhs_0 _ _
    | ⟨1, _⟩ => exact (kerDot_lhs_1 _ _).trans hk)
  have er : dot_S5000x256_S256x256_S5000x256_1_0_0_1_n_n.rhsIdx (ix2 p j) ((ValueIdx.contrEquiv1 dot_S5000x256_S256x256_S5000x256_1_0_0_1_n_n 256 rfl rfl).symm k) = ix2 k j := funext fun a => Fin.ext (by
    match a with
    | ⟨0, _⟩ => exact (kerDot_rhs_0 _ _).trans hk
    | ⟨1, _⟩ => exact kerDot_rhs_1 _ _)
  rw [el, er]

/-- Entry (p, j) of what the body stores is the rectified dot product of row p of its left block with column j of
    its right block: the casts to the same shape and the narrowings are the identity. -/
private theorem pay_apply (x0 : Vec Ideal S5000x256 .f32) (x1 : Vec Ideal S256x256 .f32) (p : Fin 5000) (j : Fin 256) :
    k0_pay1 (F := Ideal) x0 x1 (ix2 p j) = Cert.Rows.reluDot (fun k => x0 (ix2 p k)) (fun k => x1 (ix2 k j)) := by
  unfold k0_pay1 Cert.Rows.reluDot
  refine (maximumf_apply _ _ _).trans ?_
  refine congrArg₂ max ?_ rfl
  refine (kerDot_apply _ _ p j).trans ?_
  refine Finset.sum_congr rfl fun k _ => ?_
  rw [truncf_apply, truncf_apply, shapeCast_self, shapeCast_self]

/-! ## From the ten blocks to the array -/

-- the TensorCore's buffer contents when the region is entered
variable (V : (c : Dev nD) → (b : Ref sig .tc) → Buf (Elt Ideal) ((c : Thread nD τ).loc b))

private theorem zeroOffsets : (![0, 0] : Fin 2 → Nat) = fun _ => 0 := funext fun a => by fin_cases a <;> rfl

/-- The block indices over the grid: the left factor's and the output's blocks move down the rows with the point,
    the right factor's block is the whole array at every point. -/
private theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left factor's block at point t is row 5000·t + p of A. -/
private theorem leftBlock_apply (c : Dev nD) (t : Fin cfg0.N) (p : Fin 5000) (k : Fin 256) (r : Fin 50000) (hr : r.val = 5000 * t.val + p.val) :
    (iblk0 V c 0 t : Vec Ideal S5000x256 .f32) (ix2 p k) = (V c main_v12 : S50000x256.Idx → Elt Ideal .f32) (ix2 r k) := by
  obtain ⟨e0, e1, -, -, -, -⟩ := blockIndices t
  unfold iblk0
  rw [View.read_apply]
  show V c main_v12 (((cfg0.win 0).blk t).view.emb (ix2 p k)) = V c main_v12 (ix2 r k)
  refine congrArg (V c main_v12) (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

/-- The right factor's block at every point is Wt. -/
private theorem rightBlock_apply (c : Dev nD) (t : Fin cfg0.N) (k : Fin 256) (j : Fin 256) :
    (iblk0 V c 1 t : Vec Ideal S256x256 .f32) (ix2 k j) = (V c main_v13 : S256x256.Idx → Elt Ideal .f32) (ix2 k j) := by
  obtain ⟨-, -, e2, e3, -, -⟩ := blockIndices t
  unfold iblk0
  rw [View.read_apply]
  show V c main_v13 (((cfg0.win 1).blk t).view.emb (ix2 k j)) = V c main_v13 (ix2 k j)
  refine congrArg (V c main_v13) (funext fun a => Fin.ext ?_)
  match a with
  | ⟨0, _⟩ => show win0_1.index t (0 : Fin 2) * 256 + 1 * k.val = k.val; omega
  | ⟨1, _⟩ => show win0_1.index t (1 : Fin 2) * 256 + 1 * j.val = j.val; omega

/-- What point t writes back is rows 5000·t … 5000·t + 4999 of max(A · Wt, 0). -/
private theorem flushed_eq (c : Dev nD) (t : Fin cfg0.N) :
    (dat0 V c).flushed 2 t = ((cfg0.win 2).blk t).view.read (Elt Ideal) (Cert.Layers.linRelu (V c main_v12) (V c main_v13)) := by
  show (cfg0.win 2).cut (grid0.coords t) ((dat0 V c).after 2 t) = _
  rw [after0_2]
  unfold out0_2
  rw [View.canon_unit_zero zeroOffsets]
  simp only [View.ld_unit_zero (S := S5000x256) zeroOffsets, View.ld_unit_zero (S := S256x256) zeroOffsets]
  funext y
  obtain ⟨p, j, rfl⟩ : ∃ (p : Fin 5000) (j : Fin 256), y = (ix2 p j : S5000x256.Idx) := ⟨y 0, y 1, eq_ix2 (n0 := 5000) (n1 := 256) y⟩
  have hN : cfg0.N = 10 := N_0
  obtain ⟨r, hr⟩ : ∃ r : Fin 50000, r.val = 5000 * t.val + p.val := ⟨⟨5000 * t.val + p.val, by have := t.isLt; omega⟩, rfl⟩
  obtain ⟨-, -, -, -, e4, e5⟩ := blockIndices t
  have hemb : ((cfg0.win 2).blk t).view.emb (ix2 p j : S5000x256.Idx) = (ix2 r j : S50000x256.Idx) := funext fun a => Fin.ext (by
    match a with
    | ⟨0, _⟩ => show win0_2.index t (0 : Fin 2) * 5000 + 1 * p.val = r.val; omega
    | ⟨1, _⟩ => show win0_2.index t (1 : Fin 2) * 256 + 1 * j.val = j.val; omega)
  show k0_pay1 (F := Ideal) (iblk0 V c 0 t) (iblk0 V c 1 t) (ix2 p j) = Cert.Layers.linRelu (V c main_v12) (V c main_v13) (((cfg0.win 2).blk t).view.emb (ix2 p j : S5000x256.Idx))
  refine (pay_apply (iblk0 V c 0 t) (iblk0 V c 1 t) p j).trans ?_
  refine Eq.trans ?_ ((congrArg (Cert.Layers.linRelu (V c main_v12) (V c main_v13)) hemb).trans (linRelu_apply (V c main_v12) (V c main_v13) r j)).symm
  refine congrArg₂ Cert.Rows.reluDot (funext fun k => ?_) (funext fun k => ?_)
  · exact leftBlock_apply V c t p k r hr
  · exact rightBlock_apply V c t k j

/-- An entry of the array is in point t's block iff each coordinate is in the block's range on its axis. -/
private theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v14).slice (win0_2.rect t)).set ↔ _
  rw [View.set_slice_whole, Rect.mem_set_unit]
  exact Iff.rfl

/-- Row r is in the block of point r / 5000: the ten blocks cover the array. -/
private theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, e4, e5⟩ := blockIndices t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- REGION 0: the first word layer's output array after the region is `max(A · W1ᵀ, 0)` of the two arrays the region
    finds in its input windows. -/
theorem value (c : Dev nD) :
    (dat0 (F := Ideal) V c).arrAt 2 cfg0.N = Cert.Layers.linRelu (V c main_v12) (V c main_v13) :=
  (dat0 V c).arrAt_eq_of_cover 2 (Cert.Layers.linRelu (V c main_v12) (V c main_v13)) (fun t _ => flushed_eq V c t) cover

end Cert.KernelIdeal.Region0

end
-- ==== Proof.LibColumn.lean ====
/-
  Column vectors at an index. A sum along the last axis of an `[a, n]` array is an `[a]` array; kept as a column it is
  viewed as `[a, 1]` and then laid across the `b` columns of an `[a, b]` array, so that every entry of a row meets its
  row's sum. Read at an index, each of the three steps moves no data: the cast reads the same position, the spread
  reads its row's one entry, and the sum at row `r` adds the row's `n` entries.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

variable {α : Type}

/-- An `[a]` array cast to the column `[a, 1]` reads, at `(i, u)`, the operand at `i`, whatever the unit coordinate `u`:
    position `i · 1 + u` of the column is position `i` of the array. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a sum along axis 1 of a rank-2 array, over row `r` with coordinate `k` on the summed axis, is
    `(r, k)`. -/
theorem lift_last_ix1 {a n : ℕ} (h : (⟨2, ![a, n]⟩ : Shape).Reduces [1] ⟨1, ![a]⟩) (r : Fin a) (k : Fin n) :
    h.lift (ix1 r) k = ix2 r k := by
  funext c
  apply Fin.ext
  show h.liftVal (ix1 r) k.val c = (ix2 r k c).val
  unfold Shape.Reduces.liftVal
  match c with
  | ⟨0, _⟩ => rfl
  | ⟨1, _⟩ => rfl

/-- At the extended reals a lane sum along the last axis of an `[a, n]` array (from the neutral zero, which the reading
    drops) is, at row `r`, the sum of the row's `n` entries. The hypothesis on the accumulator word is typed as a printed
    program carries it: the zero word equal to itself. -/
theorem multiReduction_add_last_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin n, src (ix2 r k) := by
  refine (Ideal.multiReduction_add_single src 0x00000000#32 h hφ hacc (ix1 r)).trans ?_
  exact Finset.sum_congr rfl fun k _ => congrArg src (lift_last_ix1 h r k)

end Cert.LibColumn

end
-- ==== Proof.Region1Pay.lean ====
/-
  The body of the second dense layer on one block of 5000 rows, read at an entry. From its five loaded blocks (the
  left factor A [5000, 256], the residual h0 [5000, 256], the weights W [256, 256], and the scale row g and shift row b,
  each [1, 256]) the body forms the mix h = 0.3·h0 + 0.7·max(A·W, 0), the column of row means m = (∑ₖ h[p,k]) / 256, the
  centred array c = h − m, the column of row variances v = (∑ₖ c[p,k]²) / 256, and stores c · rsqrt(v + 1e-5) · g + b.
  Read at (p, j), every step moves or combines single entries: the product is the sum over the 256 contracted
  coordinates of row p of A against column j of W; a row sum kept as a column and spread back over the columns meets
  every entry of its own row; a [1, 256] row spread over the rows reads its column's entry. Hence the stored entry at
  (p, j) is the layer normalisation of row p of the mix, scaled by g and shifted by b, at column j.
-/
import proofs.«163003_j41652592836980_1_alg».proof.Proof.Gen.KernelIdeal.Frame
import proofs.«163003_j41652592836980_1_alg».proof.Proof.Layers
import proofs.«163003_j41652592836980_1_alg».proof.Proof.Rows
import proofs.«163003_j41652592836980_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The matrix product at an entry -/

private theorem lhs_dot_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
private theorem lhs_dot_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
private theorem rhs_dot_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
private theorem rhs_dot_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The product of a [5000, 256] and a [256, 256] array into the zero array, at `(p, k)`: row `p` of the left
    factor against column `k` of the right one. -/
private theorem matmul_entry (a : FVec Ideal S5000x256 .bf16) (w : FVec Ideal S256x256 .bf16) (p : Fin 5000) (k : Fin 256) :
    matmul dot_S5000x256_S256x256_S5000x256_1_0_0_1_n_n none a w (constant (F := Ideal) S5000x256 .f32 0x00000000#32) (ix2 p k)
      = ∑ l : Fin 256, a (ix2 p l) * w (ix2 l k) := by
  simp only [matmul]
  rw [Ideal.matmul_constant_zero_apply, ← Equiv.sum_comp (ValueIdx.contrEquiv1 dot_S5000x256_S256x256_S5000x256_1_0_0_1_n_n 256 rfl rfl).symm]
  refine Finset.sum_congr rfl fun l _ => ?_
  have hk := ValueIdx.contrEquiv1_symm_val dot_S5000x256_S256x256_S5000x256_1_0_0_1_n_n 256 rfl rfl l
  have el : dot_S5000x256_S256x256_S5000x256_1_0_0_1_n_n.lhsIdx (ix2 p k) ((ValueIdx.contrEquiv1 dot_S5000x256_S256x256_S5000x256_1_0_0_1_n_n 256 rfl rfl).symm l) = ix2 p l := funext fun a => Fin.ext (by
    match a with
    | ⟨0, _⟩ => exact lhs_dot_0 _ _
    | ⟨1, _⟩ => exact (lhs_dot_1 _ _).trans hk)
  have er : dot_S5000x256_S256x256_S5000x256_1_0_0_1_n_n.rhsIdx (ix2 p k) ((ValueIdx.contrEquiv1 dot_S5000x256_S256x256_S5000x256_1_0_0_1_n_n 256 rfl rfl).symm l) = ix2 l k := funext fun a => Fin.ext (by
    match a with
    | ⟨0, _⟩ => exact (rhs_dot_0 _ _).trans hk
    | ⟨1, _⟩ => exact rhs_dot_1 _ _)
  rw [el, er]

/-! ## The residual mix at an entry -/

/-- The residual mix of the blocks as the body forms it: three tenths of the second block plus seven tenths of the
    rectified product of the first block with the weight block. -/
private def hV (x0 x1 : Vec Ideal S5000x256 .f32) (x2 : Vec Ideal S256x256 .f32) : FVec Ideal S5000x256 .f32 :=
  addf (mulf (broadcast S5000x256 (Scalar.ofBits (F := Ideal) .f32 0x3E99999A#32)) x1)
    (mulf (broadcast S5000x256 (Scalar.ofBits (F := Ideal) .f32 0x3F333333#32))
      (maximumf
        (matmul dot_S5000x256_S256x256_S5000x256_1_0_0_1_n_n none
          (truncf .bf16 (shapeCast S5000x256 x0 shapeCasts_S5000x256_S5000x256) bitsLt_bf16_f32)
          (truncf .bf16 (shapeCast S256x256 x2 shapeCasts_S256x256_S256x256) bitsLt_bf16_f32)
          (constant (F := Ideal) S5000x256 .f32 0x00000000#32))
        (broadcast S5000x256 (Scalar.ofBits (F := Ideal) .f32 0x00000000#32))))

/-- At `(p, k)` the mix is the row formula: the entry of the second block mixed with the rectified product of row `p` of
    the first block and column `k` of the weights. -/
private theorem hV_apply (x0 x1 : Vec Ideal S5000x256 .f32) (x2 : Vec Ideal S256x256 .f32) (p : Fin 5000) (k : Fin 256) :
    hV x0 x1 x2 (ix2 p k)
      = Cert.Rows.mix (x1 (ix2 p k)) (Cert.Rows.reluDot (fun l => x0 (ix2 p l)) (fun l => x2 (ix2 l k))) := by
  unfold hV
  rw [shapeCast_self, shapeCast_self]
  show Ideal.ofBits .f32 0x3E99999A#32 * x1 (ix2 p k) + Ideal.ofBits .f32 0x3F333333#32 *
      max (matmul dot_S5000x256_S256x256_S5000x256_1_0_0_1_n_n none (truncf .bf16 x0 bitsLt_bf16_f32) (truncf .bf16 x2 bitsLt_bf16_f32)
        (constant (F := Ideal) S5000x256 .f32 0x00000000#32) (ix2 p k)) (Ideal.ofBits .f32 0x00000000#32) = _
  rw [matmul_entry]
  rfl

/-! ## The mean column -/

/-- The row sums of a [5000, 256] array divided by 256, kept as a [5000, 1] column. -/
private def meanCol (h : FVec Ideal S5000x256 .f32) : FVec Ideal S5000x1 .f32 :=
  divf (shapeCast S5000x1 (multiReduction (F := Ideal) .add [1] S5000 h 0x00000000#32 reduces_S5000x256_S5000 (.inl rfl) rfl) shapeCasts_S5000_S5000x1)
    (broadcast S5000x1 (Scalar.ofBits (F := Ideal) .f32 0x43800000#32))

/-- The column at row `p` is the mean of row `p`. -/
private theorem meanCol_apply (h : FVec Ideal S5000x256 .f32) (p : Fin 5000) :
    meanCol h (ix2 p (0 : Fin 1)) = Cert.Rows.mean (fun k => h (ix2 p k)) := by
  unfold meanCol Cert.Rows.mean
  show Ideal.div (shapeCast S5000x1 (multiReduction (F := Ideal) .add [1] S5000 h 0x00000000#32 reduces_S5000x256_S5000 (.inl rfl) rfl)
      shapeCasts_S5000_S5000x1 (ix2 p (0 : Fin 1))) (Ideal.ofBits .f32 0x43800000#32) = _
  refine congrArg (fun s => Ideal.div s (Ideal.ofBits .f32 0x43800000#32)) ?_
  refine (Cert.LibColumn.shapeCast_a_a1_apply _ shapeCasts_S5000_S5000x1 p (0 : Fin 1)).trans ?_
  exact Cert.LibColumn.multiReduction_add_last_apply h reduces_S5000x256_S5000 (.inl rfl) rfl p

/-! ## The centred array -/

/-- Every entry less its row's mean. -/
private def cen (h : FVec Ideal S5000x256 .f32) : FVec Ideal S5000x256 .f32 :=
  subf h (broadcastTo S5000x256 (meanCol h) broadcasts_S5000x1_S5000x256)

private theorem cen_apply (h : FVec Ideal S5000x256 .f32) (p : Fin 5000) (k : Fin 256) :
    cen h (ix2 p k) = h (ix2 p k) - Cert.Rows.mean (fun l => h (ix2 p l)) := by
  unfold cen
  show h (ix2 p k) - broadcastTo S5000x256 (meanCol h) broadcasts_S5000x1_S5000x256 (ix2 p k) = _
  refine congrArg (fun s => h (ix2 p k) - s) ?_
  refine (Cert.LibColumn.broadcastTo_a1_ab_apply (meanCol h) broadcasts_S5000x1_S5000x256 p k).trans ?_
  exact meanCol_apply h p

/-! ## The normalised, scaled array -/

/-- The centred array times the reciprocal root of the variance column plus the small constant, times the scale row. -/
private def lnV (h : FVec Ideal S5000x256 .f32) (g : Vec Ideal S1x256 .f32) : FVec Ideal S5000x256 .f32 :=
  mulf (mulf (cen h)
      (broadcastTo S5000x256
        (rsqrt (addf (meanCol (mulf (cen h) (cen h))) (broadcast S5000x1 (Scalar.ofBits (F := Ideal) .f32 0x3727C5AC#32))))
        broadcasts_S5000x1_S5000x256))
    (broadcastTo S5000x256 (shapeCast S1x256 g shapeCasts_S1x256_S1x256) broadcasts_S1x256_S5000x256)

private theorem lnV_apply (h : FVec Ideal S5000x256 .f32) (g : Vec Ideal S1x256 .f32) (p : Fin 5000) (j : Fin 256) :
    lnV h g (ix2 p j)
      = (h (ix2 p j) - Cert.Rows.mean (fun l => h (ix2 p l)))
          * Ideal.rsqrt (Cert.Rows.mean (fun k => (h (ix2 p k) - Cert.Rows.mean (fun l => h (ix2 p l))) * (h (ix2 p k) - Cert.Rows.mean (fun l => h (ix2 p l))))
              + Ideal.ofBits .f32 0x3727C5AC#32)
          * g (ix2 (0 : Fin 1) j) := by
  unfold lnV
  rw [shapeCast_self]
  show cen h (ix2 p j)
      * broadcastTo S5000x256
          (rsqrt (addf (meanCol (mulf (cen h) (cen h))) (broadcast S5000x1 (Scalar.ofBits (F := Ideal) .f32 0x3727C5AC#32))))
          broadcasts_S5000x1_S5000x256 (ix2 p j)
      * broadcastTo S5000x256 g broadcasts_S1x256_S5000x256 (ix2 p j) = _
  have e1 := cen_apply h p j
  have e2 : broadcastTo S5000x256
        (rsqrt (addf (meanCol (mulf (cen h) (cen h))) (broadcast S5000x1 (Scalar.ofBits (F := Ideal) .f32 0x3727C5AC#32))))
        broadcasts_S5000x1_S5000x256 (ix2 p j)
      = Ideal.rsqrt (Cert.Rows.mean (fun k => (h (ix2 p k) - Cert.Rows.mean (fun l => h (ix2 p l))) * (h (ix2 p k) - Cert.Rows.mean (fun l => h (ix2 p l))))
          + Ideal.ofBits .f32 0x3727C5AC#32) := by
    refine (Cert.LibColumn.broadcastTo_a1_ab_apply _ broadcasts_S5000x1_S5000x256 p j).trans ?_
    show Ideal.rsqrt (meanCol (mulf (cen h) (cen h)) (ix2 p (0 : Fin 1)) + Ideal.ofBits .f32 0x3727C5AC#32) = _
    refine congrArg (fun s => Ideal.rsqrt (s + Ideal.ofBits .f32 0x3727C5AC#32)) ?_
    refine (meanCol_apply _ p).trans ?_
    refine congrArg Cert.Rows.mean (funext fun k => ?_)
    show cen h (ix2 p k) * cen h (ix2 p k) = _
    rw [cen_apply]
  have e3 : broadcastTo S5000x256 g broadcasts_S1x256_S5000x256 (ix2 p j) = g (ix2 (0 : Fin 1) j) :=
    broadcastTo_1b_ab_apply g broadcasts_S1x256_S5000x256 p j
  rw [e1, e2, e3]

/-- The body's first payload is the normalised, scaled mix. -/
private theorem pay2_eq (x0 x1 : Vec Ideal S5000x256 .f32) (x2 : Vec Ideal S256x256 .f32) (x3 : Vec Ideal S1x256 .f32) :
    k1_pay2 (F := Ideal) x0 x2 x1 x3 = lnV (hV x0 x1 x2) x3 := rfl

/-- The normalised, scaled array plus the shift row, at `(p, j)`, is the layer normalisation of row `p`. -/
private theorem lnV_add_apply (h : FVec Ideal S5000x256 .f32) (g b : Vec Ideal S1x256 .f32) (p : Fin 5000) (j : Fin 256) :
    lnV h g (ix2 p j) + b (ix2 (0 : Fin 1) j)
      = Cert.Rows.lnAt (fun k => h (ix2 p k)) (fun k => g (ix2 (0 : Fin 1) k)) (fun k => b (ix2 (0 : Fin 1) k)) j := by
  rw [lnV_apply]
  rfl

-- the TensorCore's buffer contents when the region is entered
variable (V : (c : Dev nD) → (b : Ref sig .tc) → Buf (Elt Ideal) ((c : Thread nD τ).loc b))

/-- The body's result at an entry: row `p`, column `j` of what the kernel stores, from its five loaded blocks, is the
    layer normalisation of row `p` of the residual mix of the blocks. -/
theorem out1_5_apply (x0 x1 : Vec Ideal S5000x256 .f32) (x2 : Vec Ideal S256x256 .f32) (x3 x4 : Vec Ideal S1x256 .f32)
    (p : Fin 5000) (j : Fin 256) :
    out1_5 (F := Ideal) x0 x1 x2 x3 x4 (ix2 p j)
      = Cert.Rows.lnAt (fun k => Cert.Rows.mix (x1 (ix2 p k)) (Cert.Rows.reluDot (fun l => x0 (ix2 p l)) (fun l => x2 (ix2 l k))))
          (fun k => x3 (ix2 (0 : Fin 1) k)) (fun k => x4 (ix2 (0 : Fin 1) k)) j := by
  have hz : (![0, 0] : Fin 2 → Nat) = fun _ => 0 := funext fun a => by
    match a with
    | ⟨0, _⟩ => rfl
    | ⟨1, _⟩ => rfl
  unfold out1_5
  rw [View.canon_unit_zero hz]
  simp only [View.ld_unit_zero (S := S5000x256) hz, View.ld_unit_zero (S := S256x256) hz, View.ld_unit_zero (S := S1x256) hz]
  rw [pay2_eq]
  unfold k1_pay1 k1_pay3
  rw [shapeCast_self]
  show lnV (hV x0 x1 x2) x3 (ix2 p j) + broadcastTo S5000x256 x4 broadcasts_S1x256_S5000x256 (ix2 p j) = _
  rw [broadcastTo_1b_ab_apply x4 broadcasts_S1x256_S5000x256 p j, lnV_add_apply]
  exact congrArg (fun h => Cert.Rows.lnAt h (fun k => x3 (ix2 (0 : Fin 1) k)) (fun k => x4 (ix2 (0 : Fin 1) k)) j)
    (funext fun k => hV_apply x0 x1 x2 p k)

end Cert.KernelIdeal.Region1

end
-- ==== Proof.Region1Ref.lean ====
/-
  The second word layer of the reference, read one entry at a time over the extended reals.

  Every whole-array operation the layer applies moves or combines entries in a way that can be followed at a single
  position (r, j) of the [50000, 256] result:
  * a scalar spread over an array is that scalar everywhere; a vector over the rows kept as a column, a column laid
    across the 256 columns, and a vector over the columns laid down the rows each read one entry of their operand;
  * the product of A and Wt at (r, k) is the sum over l of A (r, l) · Wt (l, k), so the rectified product is
    max(∑ₗ A (r, l) · Wt (l, k), 0) and the residual mix at (r, k) is 0.3 · h0 (r, k) + 0.7 · that maximum;
  * the sum along a row, started from zero, is the sum of the row's 256 entries, so the mean column at row r is that sum
    divided by 256, and the centred array at (r, k) is the entry less its row's mean;
  * hence the layer normalisation at (r, j) is (h (r, j) − mean) · rsqrt(mean of the squared deviations + 1e-5) · g j + b j,
    which is the row formula applied to row r of h.
  Composed with the residual mix this gives the statement: entry (r, j) of the layer is the row formula on the row
  k ↦ 0.3 · h0 (r, k) + 0.7 · max(∑ₗ A (r, l) · Wt (l, k), 0).
  (The decimals 0.3, 0.7 and 1e-5 stand for the binary32 words 0x3E99999A, 0x3F333333 and 0x3727C5AC the layer spells,
  read as the extended reals they encode; 256 is the word 0x43800000 and zero the word 0x00000000.)
-/
import proofs.«163003_j41652592836980_1_alg».proof.Proof.Layers
import proofs.«163003_j41652592836980_1_alg».proof.Proof.Rows
import proofs.«163003_j41652592836980_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Layers

open Cert.ReferenceIdeal Cert.ReferenceIdeal.Gen Idealize.ShloMosaic Idealize.ShloMosaic.TcCoe Idealize.ShloMosaic.ValueIdx

/-- A scalar word spread over a whole array reads, at every index, the extended real the word encodes. -/
private theorem splat_apply {t : Shape} (hb : S_.BroadcastsInDim t (![] : Fin 0 → Fin t.rank)) (c : BitVec 32) (i : t.Idx) :
    broadcastInDim t ![] hb (constant (F := Ideal) S_ .f32 c) i = Ideal.ofBits .f32 c :=
  (broadcastInDim_apply _ hb (constant (F := Ideal) S_ .f32 c) i ix0 (fun a => a.elim0)).trans rfl

/-- A vector over the rows kept as a column reads, at `(r, u)`, the vector at `r`. -/
private theorem column_apply (v : FA S50000) (r : Fin 50000) (u : Fin 1) :
    broadcastInDim S50000x1 ![0] bcast_S50000_S50000x1_0 v (ix2 r u) = v (ix1 r) :=
  broadcastInDim_apply _ bcast_S50000_S50000x1_0 v (ix2 r u) (ix1 r) (fun a => match a with
    | ⟨0, _⟩ => by show r.val = if (50000 : Nat) = 1 then 0 else r.val; rw [if_neg (by decide)])

/-- A column laid across the 256 columns reads, at `(r, k)`, the column's entry of row `r`. -/
private theorem spread_apply (v : FA S50000x1) (r : Fin 50000) (k : Fin 256) :
    broadcastInDim S50000x256 ![0, 1] bcast_S50000x1_S50000x256_0_1 v (ix2 r k) = v (ix2 r (0 : Fin 1)) :=
  broadcastInDim_apply _ bcast_S50000x1_S50000x256_0_1 v (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])

/-- A vector over the columns laid down the 50000 rows reads, at `(r, k)`, the vector at `k`. -/
private theorem alongRows_apply (v : FA S256) (r : Fin 50000) (k : Fin 256) :
    broadcastInDim S50000x256 ![0, 1] bcast_S1x256_S50000x256_0_1 (broadcastInDim S1x256 ![1] bcast_S256_S1x256_1 v) (ix2 r k)
      = v (ix1 k) :=
  (broadcastInDim_apply _ bcast_S1x256_S50000x256_0_1 _ (ix2 r k) (ix2 (0 : Fin 1) k) (fun a => match a with
    | ⟨0, _⟩ => by show 0 = if (1 : Nat) = 1 then 0 else r.val; rw [if_pos rfl]
    | ⟨1, _⟩ => by show k.val = if (256 : Nat) = 1 then 0 else k.val; rw [if_neg (by decide)])).trans
  (broadcastInDim_apply _ bcast_S256_S1x256_1 v (ix2 (0 : Fin 1) k) (ix1 k) (fun a => match a with
    | ⟨0, _⟩ => by show k.val = if (256 : Nat) = 1 then 0 else k.val; rw [if_neg (by decide)]))

/-- The sum along a row from the zero word is, at row `r`, the sum of the row's 256 entries. -/
private theorem rowSum_apply (h : FA S50000x256) (r : Fin 50000) :
    Host.reduceAdd h (constant (F := Ideal) S_ .f32 0x00000000#32) reducesTo_S50000x256_S50000_d1 h_S_ (ix1 r)
      = ∑ k : Fin 256, h (ix2 r k) := by
  simp only [Host.reduceAdd, Ideal.hostReduceAdd_def]
  rw [Ideal.hostReduceAdd_single reducesTo_S50000x256_S50000_d1 (by decide)]
  refine (congrArg (· + _) ((constant_apply _ _).trans Ideal.ofBits_zero_f32)).trans ((zero_add _).trans ?_)
  exact Finset.sum_congr rfl fun k _ => congrArg h (funext fun a => Fin.ext (by
    match a with
    | ⟨0, _⟩ => rfl
    | ⟨1, _⟩ => rfl))

/-! The operand indices of the product of `A` and `Wt` at the output index `i` and the contraction index `q`:
    `(i₀, q)` on the left, `(q, i₁)` on the right, one coordinate at a time. -/

private theorem dot_lhs_0 (i : S50000x256.Idx) (q : dot_S50000x256_S256x256_S50000x256_1_0_0_1_n_n.contr.Idx) :
    (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
private theorem dot_lhs_1 (i : S50000x256.Idx) (q : dot_S50000x256_S256x256_S50000x256_1_0_0_1_n_n.contr.Idx) :
    (dot_S50000x256_S256x256_S50000x256_1_0_0_1_n_n.lhsIdx i q 1).val = (q ⟨0, by decide⟩).val :=
  dot_S50000x256_S256x256_S50000x256_1_0_0_1_n_n.lhsIdx_val_of_single rfl i q
private theorem dot_rhs_0 (i : S50000x256.Idx) (q : dot_S50000x256_S256x256_S50000x256_1_0_0_1_n_n.contr.Idx) :
    (dot_S50000x256_S256x256_S50000x256_1_0_0_1_n_n.rhsIdx i q 0).val = (q ⟨0, by decide⟩).val :=
  dot_S50000x256_S256x256_S50000x256_1_0_0_1_n_n.rhsIdx_val_of_single rfl i q
private theorem dot_rhs_1 (i : S50000x256.Idx) (q : dot_S50000x256_S256x256_S50000x256_1_0_0_1_n_n.contr.Idx) :
    (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl

/-- The product at an entry: row `r` of `A` against column `k` of `Wt`. -/
private theorem dot_apply (A : FA S50000x256) (Wt : FA S256x256) (r : Fin 50000) (k : Fin 256) :
    Host.dotGeneral dot_S50000x256_S256x256_S50000x256_1_0_0_1_n_n none A Wt (ix2 r k) = ∑ l : Fin 256, A (ix2 r l) * Wt (ix2 l k) := by
  simp only [Host.dotGeneral]
  rw [Ideal.dotGeneral_apply, ← Equiv.sum_comp (contrEquiv1 dot_S50000x256_S256x256_S50000x256_1_0_0_1_n_n 256 rfl rfl).symm]
  refine Finset.sum_congr rfl fun l _ => ?_
  have hl := contrEquiv1_symm_val dot_S50000x256_S256x256_S50000x256_1_0_0_1_n_n 256 rfl rfl l
  have el : dot_S50000x256_S256x256_S50000x256_1_0_0_1_n_n.lhsIdx (ix2 r k) ((contrEquiv1 dot_S50000x256_S256x256_S50000x256_1_0_0_1_n_n 256 rfl rfl).symm l) = ix2 r l := funext fun a => Fin.ext (by
    match a with
    | ⟨0, _⟩ => exact dot_lhs_0 _ _
    | ⟨1, _⟩ => exact (dot_lhs_1 _ _).trans hl)
  have er : dot_S50000x256_S256x256_S50000x256_1_0_0_1_n_n.rhsIdx (ix2 r k) ((contrEquiv1 dot_S50000x256_S256x256_S50000x256_1_0_0_1_n_n 256 rfl rfl).symm l) = ix2 l k := funext fun a => Fin.ext (by
    match a with
    | ⟨0, _⟩ => exact (dot_rhs_0 _ _).trans hl
    | ⟨1, _⟩ => exact dot_rhs_1 _ _)
  rw [el, er]

/-- The rectified product at an entry. -/
private theorem linRelu_apply (A : FA S50000x256) (Wt : FA S256x256) (r : Fin 50000) (k : Fin 256) :
    linRelu A Wt (ix2 r k) = Cert.Rows.reluDot (fun l => A (ix2 r l)) (fun l => Wt (ix2 l k)) := by
  unfold linRelu Cert.Rows.reluDot
  rw [maximumf_apply, splat_apply, dot_apply]

/-- The residual mix at an entry. -/
private theorem residMix_apply (A h0 : FA S50000x256) (Wt : FA S256x256) (r : Fin 50000) (k : Fin 256) :
    residMix A h0 Wt (ix2 r k)
      = Cert.Rows.mix (h0 (ix2 r k)) (Cert.Rows.reluDot (fun l => A (ix2 r l)) (fun l => Wt (ix2 l k))) := by
  unfold residMix Cert.Rows.mix
  rw [addf_apply, mulf_apply, mulf_apply, splat_apply, splat_apply, linRelu_apply]

/-- The mean column at row `r`: the sum of the row's 256 entries divided by 256. -/
private theorem rowMean_apply (h : FA S50000x256) (r : Fin 50000) :
    rowMean h (ix2 r (0 : Fin 1)) = Cert.Rows.mean (fun k => h (ix2 r k)) := by
  unfold rowMean Cert.Rows.mean
  show FloatOps.hostDivf _ _ = _
  rw [Ideal.hostDivf_def, splat_apply, column_apply, rowSum_apply]

/-- The host's reciprocal root at an index is the extended reals' reciprocal root of the entry. -/
private theorem hostRsqrt_apply {s : Shape} (v : FA s) (i : s.Idx) : Host.rsqrt v i = Ideal.rsqrt (v i) := rfl

/-- Every entry less its row's mean, at an entry. -/
private theorem centred_apply (h : FA S50000x256) (r : Fin 50000) (k : Fin 256) :
    centred h (ix2 r k) = h (ix2 r k) - Cert.Rows.mean (fun l => h (ix2 r l)) := by
  unfold centred
  rw [subf_apply, spread_apply, rowMean_apply]

/-- The layer normalisation at an entry: the row formula on row `r` of the operand. -/
private theorem layerNorm_apply (h : FA S50000x256) (g b : FA S256) (r : Fin 50000) (j : Fin 256) :
    layerNorm h g b (ix2 r j) = Cert.Rows.lnAt (fun k => h (ix2 r k)) (fun k => g (ix1 k)) (fun k => b (ix1 k)) j := by
  unfold layerNorm Cert.Rows.lnAt
  rw [addf_apply, mulf_apply, mulf_apply, alongRows_apply, alongRows_apply, spread_apply, centred_apply, hostRsqrt_apply,
    addf_apply, splat_apply, rowMean_apply]
  simp only [mulf_apply, centred_apply]

/-- The second word layer read at an entry: row `r`, column `j` of `residLn A h0 Wt g b` is the layer normalisation of
    row `r` of the residual mix, each entry `k` of which mixes `h0 (r, k)` with the rectified product of row `r` of `A`
    and column `k` of `Wt`. -/
theorem residLn_apply (A h0 : FA S50000x256) (Wt : FA S256x256) (g b : FA S256) (r : Fin 50000) (j : Fin 256) :
    residLn A h0 Wt g b (ix2 r j)
      = Cert.Rows.lnAt (fun k => Cert.Rows.mix (h0 (ix2 r k)) (Cert.Rows.reluDot (fun l => A (ix2 r l)) (fun l => Wt (ix2 l k))))
          (fun k => g (ix1 k)) (fun k => b (ix1 k)) j := by
  unfold residLn
  rw [layerNorm_apply]
  simp only [residMix_apply]

end Cert.Layers

end
-- ==== Proof.Region1.lean ====
/-
  The second word layer's pipelined region, from blocks to the whole array. The grid has ten points; point t works on
  rows 5000·t … 5000·t + 4999: it is handed those rows of the aggregated array and of the residual input, the whole
  weight matrix and the scale and shift rows, and writes back those rows of the output. Entry (p, j) of what point t
  writes is the layer normalisation of row p of the residual mix of its blocks; read through the blocks' places in
  their arrays this is entry (5000·t + p, j) of `residLn` of the whole arrays, the scale and shift rows being the
  vectors g and b laid along the columns. Every row r lies in the block of point r / 5000, so the ten written blocks
  fill the output array, which therefore ends holding `residLn` of the arrays the region found.
-/
import proofs.«163003_j41652592836980_1_alg».proof.Proof.Gen.KernelIdeal.Frame
import proofs.«163003_j41652592836980_1_alg».proof.Proof.Layers
import proofs.«163003_j41652592836980_1_alg».proof.Proof.Rows
import proofs.«163003_j41652592836980_1_alg».proof.Proof.Region1Pay
import proofs.«163003_j41652592836980_1_alg».proof.Proof.Region1Ref
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-- The block index of every window at every point of the grid: the three row-blocked windows (aggregated array, residual
    input, output) are at block `t` along the rows and block `0` along the columns; the weight matrix and the scale and
    shift rows are at block `(0, 0)`. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block of the aggregated array is row `5000·t + p` of the array. -/
theorem agg_block_apply (c : Dev nD) (t : Fin cfg1.N) (p : Fin 5000) (l : Fin 256) (r : Fin 50000)
    (hr : r.val = 5000 * t.val + p.val) :
    (iblk1 V c 0 t : Vec Ideal S5000x256 .f32) (ix2 p l) = (V c main_v27 : S50000x256.Idx → EReal) (ix2 r l) := by
  obtain ⟨e0, e1, -⟩ := block_index t
  unfold iblk1
  rw [View.read_apply]
  show (V c main_v27 : S50000x256.Idx → EReal) (((cfg1.win 0).blk t).view.emb (ix2 p l)) = _
  congr 1
  funext a; apply Fin.ext
  match a with
  | ⟨0, _⟩ => show win1_0.index t (0 : Fin 2) * 5000 + 1 * p.val = r.val; omega
  | ⟨1, _⟩ => show win1_0.index t (1 : Fin 2) * 256 + 1 * l.val = l.val; omega

/-- Row `p` of point `t`'s block of the residual input is row `5000·t + p` of the array. -/
theorem resid_block_apply (c : Dev nD) (t : Fin cfg1.N) (p : Fin 5000) (l : Fin 256) (r : Fin 50000)
    (hr : r.val = 5000 * t.val + p.val) :
    (iblk1 V c 1 t : Vec Ideal S5000x256 .f32) (ix2 p l) = (V c main_arg6 : S50000x256.Idx → EReal) (ix2 r l) := by
  obtain ⟨-, -, e0, e1, -⟩ := block_index t
  unfold iblk1
  rw [View.read_apply]
  show (V c main_arg6 : S50000x256.Idx → EReal) (((cfg1.win 1).blk t).view.emb (ix2 p l)) = _
  congr 1
  funext a; apply Fin.ext
  match a with
  | ⟨0, _⟩ => show win1_1.index t (0 : Fin 2) * 5000 + 1 * p.val = r.val; omega
  | ⟨1, _⟩ => show win1_1.index t (1 : Fin 2) * 256 + 1 * l.val = l.val; omega

/-- Every point's block of the weight matrix is the whole matrix. -/
theorem weight_block_apply (c : Dev nD) (t : Fin cfg1.N) (l k : Fin 256) :
    (iblk1 V c 2 t : Vec Ideal S256x256 .f32) (ix2 l k) = (V c main_v28 : S256x256.Idx → EReal) (ix2 l k) := by
  obtain ⟨-, -, -, -, e0, e1, -⟩ := block_index t
  unfold iblk1
  rw [View.read_apply]
  show (V c main_v28 : S256x256.Idx → EReal) (((cfg1.win 2).blk t).view.emb (ix2 l k)) = _
  congr 1
  funext a; apply Fin.ext
  match a with
  | ⟨0, _⟩ => show win1_2.index t (0 : Fin 2) * 256 + 1 * l.val = l.val; omega
  | ⟨1, _⟩ => show win1_2.index t (1 : Fin 2) * 256 + 1 * k.val = k.val; omega

/-- Every point's block of the scale row is the whole row. -/
theorem scale_block_apply (c : Dev nD) (t : Fin cfg1.N) (k : Fin 256) :
    (iblk1 V c 3 t : Vec Ideal S1x256 .f32) (ix2 (0 : Fin 1) k) = (V c main_v29 : S1x256.Idx → EReal) (ix2 (0 : Fin 1) k) := by
  obtain ⟨-, -, -, -, -, -, e0, e1, -⟩ := block_index t
  unfold iblk1
  rw [View.read_apply]
  show (V c main_v29 : S1x256.Idx → EReal) (((cfg1.win 3).blk t).view.emb (ix2 (0 : Fin 1) k)) = _
  congr 1
  funext a; apply Fin.ext
  match a with
  | ⟨0, _⟩ => show win1_3.index t (0 : Fin 2) * 1 + 1 * (0 : Fin 1).val = (0 : Fin 1).val; omega
  | ⟨1, _⟩ => show win1_3.index t (1 : Fin 2) * 256 + 1 * k.val = k.val; omega

/-- Every point's block of the shift row is the whole row. -/
theorem shift_block_apply (c : Dev nD) (t : Fin cfg1.N) (k : Fin 256) :
    (iblk1 V c 4 t : Vec Ideal S1x256 .f32) (ix2 (0 : Fin 1) k) = (V c main_v30 : S1x256.Idx → EReal) (ix2 (0 : Fin 1) k) := by
  obtain ⟨-, -, -, -, -, -, -, -, e0, e1, -⟩ := block_index t
  unfold iblk1
  rw [View.read_apply]
  show (V c main_v30 : S1x256.Idx → EReal) (((cfg1.win 4).blk t).view.emb (ix2 (0 : Fin 1) k)) = _
  congr 1
  funext a; apply Fin.ext
  match a with
  | ⟨0, _⟩ => show win1_4.index t (0 : Fin 2) * 1 + 1 * (0 : Fin 1).val = (0 : Fin 1).val; omega
  | ⟨1, _⟩ => show win1_4.index t (1 : Fin 2) * 256 + 1 * k.val = k.val; omega

/-- A vector laid out as one row, read at column `k` of that row. -/
theorem row_of_vector_apply (g : Cert.Layers.FA Cert.ReferenceIdeal.S256) (k : Fin 256) :
    (broadcastInDim Cert.ReferenceIdeal.S1x256 ![1] Cert.ReferenceIdeal.Gen.bcast_S256_S1x256_1 g : S1x256.Idx → EReal) (ix2 (0 : Fin 1) k)
      = g (ix1 k) := by
  refine broadcastInDim_apply _ _ g _ (ix1 k) fun a => ?_
  match a with
  | ⟨0, _⟩ => rfl

/-- WHAT POINT `t` WRITES BACK is block `t` of `residLn` of the arrays the region finds. -/
theorem flushed_eq (c : Dev nD) (g b : Cert.Layers.FA Cert.ReferenceIdeal.S256)
    (hg : V c main_v29 = broadcastInDim Cert.ReferenceIdeal.S1x256 ![1] Cert.ReferenceIdeal.Gen.bcast_S256_S1x256_1 g)
    (hb : V c main_v30 = broadcastInDim Cert.ReferenceIdeal.S1x256 ![1] Cert.ReferenceIdeal.Gen.bcast_S256_S1x256_1 b)
    (t : Fin cfg1.N) :
    (dat1 (F := Ideal) V c).flushed 5 t
      = ((cfg1.win 5).blk t).view.read (Elt Ideal)
          (Cert.Layers.residLn (V c main_v27) (V c main_arg6) (V c main_v28) g b) := by
  show (cfg1.win 5).cut (grid1.coords t) ((dat1 V c).after 5 t) = _
  rw [after1_5]
  funext y
  obtain ⟨p, j, rfl⟩ : ∃ (p : Fin 5000) (j : Fin 256), y = ix2 p j := ⟨y 0, y 1, eq_ix2 y⟩
  obtain ⟨-, -, -, -, -, -, -, -, -, -, e0, e1⟩ := block_index t
  have hN : cfg1.N = 10 := N_1
  have ht : t.val < 10 := hN ▸ t.isLt
  -- the row of the array that row `p` of point `t`'s block is
  obtain ⟨r, hr⟩ : ∃ r : Fin 50000, r.val = 5000 * t.val + p.val := ⟨⟨5000 * t.val + p.val, by omega⟩, rfl⟩
  have hplace : ((cfg1.win 5).blk t).view.emb (ix2 p j) = (ix2 r j : S50000x256.Idx) := by
    funext a; apply Fin.ext
    match a with
    | ⟨0, _⟩ => show win1_5.index t (0 : Fin 2) * 5000 + 1 * p.val = r.val; omega
    | ⟨1, _⟩ => show win1_5.index t (1 : Fin 2) * 256 + 1 * j.val = j.val; omega
  rw [View.read_apply]
  show out1_5 (F := Ideal) (iblk1 V c 0 t) (iblk1 V c 1 t) (iblk1 V c 2 t) (iblk1 V c 3 t) (iblk1 V c 4 t) (ix2 p j)
    = Cert.Layers.residLn (V c main_v27) (V c main_arg6) (V c main_v28) g b (((cfg1.win 5).blk t).view.emb (ix2 p j))
  rw [hplace]
  refine (out1_5_apply (iblk1 V c 0 t) (iblk1 V c 1 t) (iblk1 V c 2 t) (iblk1 V c 3 t) (iblk1 V c 4 t) p j).trans ?_
  refine Eq.trans ?_ (Cert.Layers.residLn_apply (V c main_v27) (V c main_arg6) (V c main_v28) g b r j).symm
  have hscale : ∀ k : Fin 256, (iblk1 V c 3 t : Vec Ideal S1x256 .f32) (ix2 (0 : Fin 1) k) = g (ix1 k) := fun k => by
    rw [scale_block_apply V c t k, hg]; exact row_of_vector_apply g k
  have hshift : ∀ k : Fin 256, (iblk1 V c 4 t : Vec Ideal S1x256 .f32) (ix2 (0 : Fin 1) k) = b (ix1 k) := fun k => by
    rw [shift_block_apply V c t k, hb]; exact row_of_vector_apply b k
  simp only [agg_block_apply V c t p _ r hr, resid_block_apply V c t p _ r hr, weight_block_apply V c t, hscale, hshift]

/-- An index of the output array is in point `t`'s block iff each coordinate is in the block's range on its axis. -/
theorem mem_out_block (t : Fin cfg1.N) (i : S50000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v31).slice (win1_5.rect t)).set ↔ _
  rw [View.set_slice_whole, Rect.mem_set_unit]
  exact Iff.rfl

/-- REGION 1: the second word layer's output array after the region is `residLn` of the arrays the region finds in its
    input windows, the scale and shift rows being the vectors `g`, `b` laid out as one row. -/
theorem value (c : Dev nD) (g b : Cert.Layers.FA Cert.ReferenceIdeal.S256)
    (hg : V c main_v29 = broadcastInDim Cert.ReferenceIdeal.S1x256 ![1] Cert.ReferenceIdeal.Gen.bcast_S256_S1x256_1 g)
    (hb : V c main_v30 = broadcastInDim Cert.ReferenceIdeal.S1x256 ![1] Cert.ReferenceIdeal.Gen.bcast_S256_S1x256_1 b) :
    (dat1 (F := Ideal) V c).arrAt 5 cfg1.N
      = Cert.Layers.residLn (V c main_v27) (V c main_arg6) (V c main_v28) g b := by
  refine (dat1 (F := Ideal) V c).arrAt_eq_of_cover 5
    (Cert.Layers.residLn (V c main_v27) (V c main_arg6) (V c main_v28) g b)
    (fun t _ => flushed_eq V c g b hg hb t) fun i => ?_
  -- row `r` lies in the block of point `r / 5000`
  have hN : cfg1.N = 10 := N_1
  have hi0 : ((i : S50000x256.Idx) 0).val < 50000 := ((i : S50000x256.Idx) 0).isLt
  have hi1 : ((i : S50000x256.Idx) 1).val < 256 := ((i : S50000x256.Idx) 1).isLt
  let t : Fin cfg1.N := ⟨((i : S50000x256.Idx) 0).val / 5000, by rw [hN]; omega⟩
  have htv : t.val = ((i : S50000x256.Idx) 0).val / 5000 := rfl
  obtain ⟨-, -, -, -, -, -, -, -, -, -, e0, e1⟩ := block_index t
  refine ⟨t, flush1_5 t, ?_⟩
  rw [mem_out_block]
  intro a
  match a with
  | ⟨0, _⟩ => show win1_5.index t (0 : Fin 2) * 5000 ≤ ((i : S50000x256.Idx) 0).val ∧ ((i : S50000x256.Idx) 0).val < win1_5.index t (0 : Fin 2) * 5000 + 5000; omega
  | ⟨1, _⟩ => show win1_5.index t (1 : Fin 2) * 256 ≤ ((i : S50000x256.Idx) 1).val ∧ ((i : S50000x256.Idx) 1).val < win1_5.index t (1 : Fin 2) * 256 + 256; omega

end Cert.KernelIdeal.Region1

end
-- ==== Proof.Region2.lean ====
/-
  The document head of the network on the TensorCore. The region walks the 16384 document rows in four blocks of 4096 rows:
  at each block it adds the two feature blocks, multiplies by the hidden layer's matrix, adds the bias row, rectifies,
  multiplies by the classifier's matrix, adds the classifier's bias row, and writes the [4096, 2] block back. Over the
  extended reals the narrowings to the short float format keep every value, and a product onto a zero accumulator is the
  plain sum of products, so entry (r, j) of what is written is
      ∑ₖ max(∑ₗ (d1[r, l] + d2[r, l]) · W[l, k] + b[k], 0) · cW[k, j] + cb[j],
  which is also entry (r, j) of the reference's head applied to the whole arrays. Row r of the array is row r mod 4096 of
  block r / 4096; the matrices and the bias rows are seen whole from every block; the four blocks tile the output. Hence
  the output array ends as the reference's head of the arrays the region finds.
-/
import proofs.«163003_j41652592836980_1_alg».proof.Proof.Gen.KernelIdeal.Frame
import proofs.«163003_j41652592836980_1_alg».proof.Proof.Layers
import proofs.«163003_j41652592836980_1_alg».proof.Proof.Rows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

/-- Entry of the head for one document row and one class: with `x`, `y` the row's two feature vectors, `W` the hidden
    layer's matrix, `b` its bias, `cW` the class's column of the classifier and `cb` its bias,
    `∑ₖ max(∑ₗ (xₗ + yₗ)·Wₗₖ + bₖ, 0)·cWₖ + cb`. -/
def headAt (x y : Fin 256 → EReal) (W : Fin 256 → Fin 256 → EReal) (b cW : Fin 256 → EReal) (cb : EReal) : EReal :=
  (∑ k : Fin 256, max ((∑ l : Fin 256, (x l + y l) * W l k) + b k) (Ideal.ofBits .f32 0x00000000#32) * cW k) + cb

/-- A plain `[M, K] × [K, N]` contraction at the entry `(r, c)`: the sum over the one contracted coordinate of the
    left factor's row `r` against the right factor's column `c`. -/
theorem sum_plain (M K N : Nat) {φ₁ φ₂ : FTy} (A : FVec Ideal ⟨2, ![M, K]⟩ φ₁) (B : FVec Ideal ⟨2, ![K, N]⟩ φ₂) (r : Fin M) (c : Fin N) :
    ∑ q : (DotDims.plain M K N).contr.Idx, A ((DotDims.plain M K N).lhsIdx (ix2 r c) q) * B ((DotDims.plain M K N).rhsIdx (ix2 r c) q)
      = ∑ k : Fin K, A (ix2 r k) * B (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((contrEquiv1 (DotDims.plain M K N) K rfl rfl).symm k) = ix2 k c :=
    funext fun a => Fin.ext (by
      match a with
      | ⟨0, _⟩ => exact hk
      | ⟨1, _⟩ => rfl)
  rw [el, er]

/-- The four contractions of the head, the reference's two on all 16384 rows and the kernel's two on a block of 4096, are
    plain row-by-column ones. -/
theorem refDot1_eq : Cert.ReferenceIdeal.dot_S16384x256_S256x256_S16384x256_1_0_0_1_n_n = DotDims.plain 16384 256 256 := rfl
theorem refDot2_eq : Cert.ReferenceIdeal.dot_S16384x256_S256x2_S16384x2_1_0_0_1_n_n = DotDims.plain 16384 256 2 := rfl
theorem kerDot1_eq : dot_S4096x256_S256x256_S4096x256_1_0_0_1_n_n = DotDims.plain 4096 256 256 := rfl
theorem kerDot2_eq : dot_S4096x256_S256x2_S4096x2_1_0_0_1_n_n = DotDims.plain 4096 256 2 := rfl

/-- The reference's product at `(r, c)`: row `r` of the left factor against column `c` of the right one. -/
theorem hostDot_apply (M K N : Nat) (A : FVec Ideal ⟨2, ![M, K]⟩ .f32) (B : FVec Ideal ⟨2, ![K, N]⟩ .f32) (r : Fin M) (c : Fin N) :
    Host.dotGeneral (DotDims.plain M K N) none A B (ix2 r c) = ∑ k : Fin K, A (ix2 r k) * B (ix2 k c) := by
  simp only [Host.dotGeneral]
  rw [Ideal.dotGeneral_apply]
  exact sum_plain M K N A B r c

/-- The kernel's product onto a zero accumulator at `(p, c)`: the same sum, whatever formats the factors are held in. -/
theorem matmulZero_apply (M K N : Nat) {φ₁ φ₂ : FTy} (A : FVec Ideal ⟨2, ![M, K]⟩ φ₁) (B : FVec Ideal ⟨2, ![K, N]⟩ φ₂) (p : Fin M) (c : Fin N) :
    matmul (DotDims.plain M K N) none A B (constant ⟨2, ![M, N]⟩ .f32 0x00000000#32) (ix2 p c) = ∑ k : Fin K, A (ix2 p k) * B (ix2 k c) := by
  simp only [matmul]
  rw [Ideal.matmul_constant_zero_apply]
  exact sum_plain M K N A B p c

/-- A vector laid out as one row reads, at `(0, k)`, its entry `k`. -/
theorem asRow_apply {n : Nat} {α : Type} (h : (⟨1, ![n]⟩ : Shape).BroadcastsInDim ⟨2, ![1, n]⟩ ![1]) (b : (⟨1, ![n]⟩ : Shape).Idx → α)
    (u : Fin 1) (k : Fin n) : broadcastInDim ⟨2, ![1, n]⟩ ![1] h b (ix2 u k) = b (ix1 k) := by
  refine broadcastInDim_apply _ h b (ix2 u k) (ix1 k) fun a => ?_
  match a with
  | ⟨0, _⟩ =>
    show k.val = if n = 1 then 0 else k.val
    split
    · have := k.isLt; omega
    · rfl

/-- One row repeated down `m` rows reads, at `(r, k)`, the row's entry `k`. -/
theorem downRows_apply {m n : Nat} {α : Type} (h : (⟨2, ![1, n]⟩ : Shape).BroadcastsInDim ⟨2, ![m, n]⟩ ![0, 1])
    (v : (⟨2, ![1, n]⟩ : Shape).Idx → α) (r : Fin m) (k : Fin n) :
    broadcastInDim ⟨2, ![m, n]⟩ ![0, 1] h v (ix2 r k) = v (ix2 (0 : Fin 1) k) := by
  refine broadcastInDim_apply _ h v (ix2 r k) (ix2 (0 : Fin 1) k) fun a => ?_
  match a with
  | ⟨0, _⟩ => rfl
  | ⟨1, _⟩ =>
    show k.val = if n = 1 then 0 else k.val
    split
    · have := k.isLt; omega
    · rfl

/-- THE REFERENCE'S HEAD AT AN ENTRY: row `r`, class `j` of `max((d1 + d2)·W + b, 0)·cW + cb` is the entry formula of
    row `r` of the two feature arrays, the matrix `W`, the bias `b`, column `j` of `cW` and entry `j` of `cb`. -/
theorem mlpCls_apply (d1 d2 : Cert.Layers.FA Cert.ReferenceIdeal.S16384x256) (W : Cert.Layers.FA Cert.ReferenceIdeal.S256x256)
    (b : Cert.Layers.FA Cert.ReferenceIdeal.S256) (cW : Cert.Layers.FA Cert.ReferenceIdeal.S256x2) (cb : Cert.Layers.FA Cert.ReferenceIdeal.S2)
    (r : Fin 16384) (j : Fin 2) :
    Cert.Layers.mlpCls d1 d2 W b cW cb (ix2 r j)
      = headAt (fun l => d1 (ix2 r l)) (fun l => d2 (ix2 r l)) (fun l k => W (ix2 l k)) (fun k => b (ix1 k))
          (fun k => cW (ix2 k j)) (cb (ix1 j)) := by
  unfold Cert.Layers.mlpCls headAt
  rw [refDot1_eq, refDot2_eq, addf_apply, hostDot_apply, downRows_apply, asRow_apply]
  refine congrArg (· + cb (ix1 j)) (Finset.sum_congr rfl fun k _ => ?_)
  rw [maximumf_apply, addf_apply, hostDot_apply, downRows_apply, asRow_apply]
  rfl

/-- THE KERNEL'S BLOCK AT AN ENTRY: row `p` of the block, class `j` of what the body stores is the entry formula of
    row `p` of the two feature blocks, the matrix block, the bias row, column `j` of the classifier block and entry `j` of
    its bias row; the narrowings to the short format keep every value. -/
theorem pay_apply (x0 x1 : FVec Ideal S4096x256 .f32) (x2 : FVec Ideal S256x256 .f32) (x3 : FVec Ideal S1x256 .f32)
    (x4 : FVec Ideal S256x2 .f32) (x5 : FVec Ideal S1x2 .f32) (p : Fin 4096) (j : Fin 2) :
    k2_pay1 (F := Ideal) x0 x1 x2 x3 x4 x5 (ix2 p j)
      = headAt (fun l => x0 (ix2 p l)) (fun l => x1 (ix2 p l)) (fun l k => x2 (ix2 l k)) (fun k => x3 (ix2 (0 : Fin 1) k))
          (fun k => x4 (ix2 k j)) (x5 (ix2 (0 : Fin 1) j)) := by
  unfold k2_pay1 headAt
  simp only [shapeCast_self]
  rw [kerDot1_eq, kerDot2_eq, addf_apply, matmulZero_apply, broadcastTo_1b_ab_apply]
  refine congrArg (· + x5 (ix2 (0 : Fin 1) j)) (Finset.sum_congr rfl fun k _ => ?_)
  rw [truncf_apply, truncf_apply, maximumf_apply, addf_apply, matmulZero_apply, broadcastTo_1b_ab_apply]
  rfl

-- the TensorCore's buffer contents when the region is entered
variable (V : (c : Dev nD) → (b : Ref sig .tc) → Buf (Elt Ideal) ((c : Thread nD τ).loc b))

theorem zeroOffsets : (![0, 0] : Fin 2 → Nat) = fun _ => 0 := funext fun a => by fin_cases a <;> rfl

/-- The block every window shows at a grid point, decided over the four points: the two feature arrays and the output
    move down one block of rows per point; the matrices and the bias rows stay whole. -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row `p` of point `t`'s block of the first feature array is row `4096·t + p` of the array. -/
theorem feat1_blk (c : Dev nD) (t : Fin cfg2.N) (p : Fin 4096) (l : Fin 256) (r : Fin 16384) (hr : r.val = 4096 * t.val + p.val) :
    iblk2 V c 0 t (ix2 p l) = V c main_v44 (ix2 r l) := by
  obtain ⟨e0, e1, -⟩ := blockIndex t
  show V c main_v44 (((cfg2.win 0).blk t).view.emb (ix2 p l)) = V c main_v44 (ix2 r l)
  refine congrArg (V c main_v44) (funext fun a => Fin.ext ?_)
  match a with
  | ⟨0, _⟩ => show win2_0.index t (0 : Fin 2) * 4096 + 1 * p.val = r.val; omega
  | ⟨1, _⟩ => show win2_0.index t (1 : Fin 2) * 256 + 1 * l.val = l.val; omega

/-- Row `p` of point `t`'s block of the second feature array is row `4096·t + p` of the array. -/
theorem feat2_blk (c : Dev nD) (t : Fin cfg2.N) (p : Fin 4096) (l : Fin 256) (r : Fin 16384) (hr : r.val = 4096 * t.val + p.val) :
    iblk2 V c 1 t (ix2 p l) = V c main_v57 (ix2 r l) := by
  obtain ⟨-, -, e0, e1, -⟩ := blockIndex t
  show V c main_v57 (((cfg2.win 1).blk t).view.emb (ix2 p l)) = V c main_v57 (ix2 r l)
  refine congrArg (V c main_v57) (funext fun a => Fin.ext ?_)
  match a with
  | ⟨0, _⟩ => show win2_1.index t (0 : Fin 2) * 4096 + 1 * p.val = r.val; omega
  | ⟨1, _⟩ => show win2_1.index t (1 : Fin 2) * 256 + 1 * l.val = l.val; omega

/-- The hidden layer's matrix is shown whole at every point. -/
theorem mat_blk (c : Dev nD) (t : Fin cfg2.N) (l k : Fin 256) : iblk2 V c 2 t (ix2 l k) = V c main_v58 (ix2 l k) := by
  obtain ⟨-, -, -, -, e0, e1, -⟩ := blockIndex t
  show V c main_v58 (((cfg2.win 2).blk t).view.emb (ix2 l k)) = V c main_v58 (ix2 l k)
  refine congrArg (V c main_v58) (funext fun a => Fin.ext ?_)
  match a with
  | ⟨0, _⟩ => show win2_2.index t (0 : Fin 2) * 256 + 1 * l.val = l.val; omega
  | ⟨1, _⟩ => show win2_2.index t (1 : Fin 2) * 256 + 1 * k.val = k.val; omega

/-- The hidden layer's bias row is shown whole at every point. -/
theorem biasRow_blk (c : Dev nD) (t : Fin cfg2.N) (u : Fin 1) (k : Fin 256) : iblk2 V c 3 t (ix2 u k) = V c main_v60 (ix2 u k) := by
  obtain ⟨-, -, -, -, -, -, e0, e1, -⟩ := blockIndex t
  show V c main_v60 (((cfg2.win 3).blk t).view.emb (ix2 u k)) = V c main_v60 (ix2 u k)
  refine congrArg (V c main_v60) (funext fun a => Fin.ext ?_)
  match a with
  | ⟨0, _⟩ => show win2_3.index t (0 : Fin 2) * 1 + 1 * u.val = u.val; omega
  | ⟨1, _⟩ => show win2_3.index t (1 : Fin 2) * 256 + 1 * k.val = k.val; omega

/-- The classifier's matrix is shown whole at every point. -/
theorem cls_blk (c : Dev nD) (t : Fin cfg2.N) (k : Fin 256) (j : Fin 2) : iblk2 V c 4 t (ix2 k j) = V c main_v59 (ix2 k j) := by
  obtain ⟨-, -, -, -, -, -, -, -, e0, e1, -⟩ := blockIndex t
  show V c main_v59 (((cfg2.win 4).blk t).view.emb (ix2 k j)) = V c main_v59 (ix2 k j)
  refine congrArg (V c main_v59) (funext fun a => Fin.ext ?_)
  match a with
  | ⟨0, _⟩ => show win2_4.index t (0 : Fin 2) * 256 + 1 * k.val = k.val; omega
  | ⟨1, _⟩ => show win2_4.index t (1 : Fin 2) * 2 + 1 * j.val = j.val; omega

/-- The classifier's bias row is shown whole at every point. -/
theorem clsBiasRow_blk (c : Dev nD) (t : Fin cfg2.N) (u : Fin 1) (j : Fin 2) : iblk2 V c 5 t (ix2 u j) = V c main_v61 (ix2 u j) := by
  obtain ⟨-, -, -, -, -, -, -, -, -, -, e0, e1, -⟩ := blockIndex t
  show V c main_v61 (((cfg2.win 5).blk t).view.emb (ix2 u j)) = V c main_v61 (ix2 u j)
  refine congrArg (V c main_v61) (funext fun a => Fin.ext ?_)
  match a with
  | ⟨0, _⟩ => show win2_5.index t (0 : Fin 2) * 1 + 1 * u.val = u.val; omega
  | ⟨1, _⟩ => show win2_5.index t (1 : Fin 2) * 2 + 1 * j.val = j.val; omega

/-- The entry formula depends on its six arguments entry by entry. -/
theorem headAt_congr {x x' y y' : Fin 256 → EReal} {W W' : Fin 256 → Fin 256 → EReal} {b b' cW cW' : Fin 256 → EReal} {cb cb' : EReal}
    (hx : ∀ l, x l = x' l) (hy : ∀ l, y l = y' l) (hW : ∀ l k, W l k = W' l k) (hb : ∀ k, b k = b' k) (hcW : ∀ k, cW k = cW' k)
    (hcb : cb = cb') : headAt x y W b cW cb = headAt x' y' W' b' cW' cb' := by
  obtain rfl : x = x' := funext hx
  obtain rfl : y = y' := funext hy
  obtain rfl : W = W' := funext fun l => funext (hW l)
  obtain rfl : b = b' := funext hb
  obtain rfl : cW = cW' := funext hcW
  rw [hcb]

/-- WHAT POINT `t` WRITES BACK is block `t` of the reference's head of the arrays the region finds, the two bias rows
    being the bias vectors laid out as rows. -/
theorem flushed_eq (c : Dev nD) (b : Cert.Layers.FA Cert.ReferenceIdeal.S256) (cb : Cert.Layers.FA Cert.ReferenceIdeal.S2)
    (hb : V c main_v60 = broadcastInDim Cert.ReferenceIdeal.S1x256 ![1] Cert.ReferenceIdeal.Gen.bcast_S256_S1x256_1 b)
    (hcb : V c main_v61 = broadcastInDim Cert.ReferenceIdeal.S1x2 ![1] Cert.ReferenceIdeal.Gen.bcast_S2_S1x2_1 cb) (t : Fin cfg2.N) :
    (dat2 (F := Ideal) V c).flushed 6 t
      = ((cfg2.win 6).blk t).view.read (Elt Ideal)
          (Cert.Layers.mlpCls (V c main_v44) (V c main_v57) (V c main_v58) b (V c main_v59) cb) := by
  show (cfg2.win 6).cut (grid2.coords t) ((dat2 V c).after 6 t) = _
  rw [after2_6]
  unfold out2_6
  rw [View.canon_unit_zero zeroOffsets]
  simp only [View.ld_unit_zero (S := S4096x256) zeroOffsets, View.ld_unit_zero (S := S256x256) zeroOffsets,
    View.ld_unit_zero (S := S1x256) zeroOffsets, View.ld_unit_zero (S := S256x2) zeroOffsets, View.ld_unit_zero (S := S1x2) zeroOffsets]
  funext y
  obtain ⟨p, j, rfl⟩ : ∃ (p : Fin 4096) (j : Fin 2), y = ix2 p j := ⟨y 0, y 1, eq_ix2 y⟩
  have ht : t.val < 4 := lt_of_lt_of_eq t.isLt (show cfg2.N = 4 from N_2)
  obtain ⟨-, -, -, -, -, -, -, -, -, -, -, -, e0, e1⟩ := blockIndex t
  have hemb : ((cfg2.win 6).blk t).view.emb (ix2 p j) = ix2 (⟨4096 * t.val + p.val, by omega⟩ : Fin 16384) j := by
    funext a; apply Fin.ext
    match a with
    | ⟨0, _⟩ => show win2_6.index t (0 : Fin 2) * 4096 + 1 * p.val = 4096 * t.val + p.val; omega
    | ⟨1, _⟩ => show win2_6.index t (1 : Fin 2) * 2 + 1 * j.val = j.val; omega
  show k2_pay1 (F := Ideal) (iblk2 V c 0 t) (iblk2 V c 1 t) (iblk2 V c 2 t) (iblk2 V c 3 t) (iblk2 V c 4 t) (iblk2 V c 5 t) (ix2 p j)
    = Cert.Layers.mlpCls (V c main_v44) (V c main_v57) (V c main_v58) b (V c main_v59) cb (((cfg2.win 6).blk t).view.emb (ix2 p j))
  rw [hemb, mlpCls_apply]
  refine (pay_apply (iblk2 V c 0 t) (iblk2 V c 1 t) (iblk2 V c 2 t) (iblk2 V c 3 t) (iblk2 V c 4 t) (iblk2 V c 5 t) p j).trans ?_
  exact headAt_congr (fun l => feat1_blk V c t p l _ rfl) (fun l => feat2_blk V c t p l _ rfl) (fun l k => mat_blk V c t l k)
    (fun k => (biasRow_blk V c t 0 k).trans ((congrFun hb (ix2 (0 : Fin 1) k)).trans (asRow_apply _ b 0 k)))
    (fun k => cls_blk V c t k j)
    ((clsBiasRow_blk V c t 0 j).trans ((congrFun hcb (ix2 (0 : Fin 1) j)).trans (asRow_apply _ cb 0 j)))

/-- An index of the output array is in point `t`'s block iff each coordinate is in the block's range on its axis. -/
theorem mem_blk (t : Fin cfg2.N) (i : S16384x2.Idx) :
    i ∈ ((cfg2.win 6).blk t).view.set
      ↔ ∀ a : Fin 2, win2_6.index t a * S4096x2.size a ≤ (i a).val ∧ (i a).val < win2_6.index t a * S4096x2.size a + S4096x2.size a := by
  show i ∈ ((View.whole main_v62).slice (win2_6.rect t)).set ↔ _
  rw [View.set_slice_whole, Rect.mem_set_unit]
  exact Iff.rfl

/-- Every row of the output is in a block some point writes back: row `r` in point `r / 4096`'s. -/
theorem cover (i : S16384x2.Idx) : ∃ t : Fin cfg2.N, (cfg2.win 6).flush t = true ∧ i ∈ ((cfg2.win 6).blk t).view.set := by
  have hi0 : (i 0).val < 16384 := (i 0).isLt
  have hi1 : (i 1).val < 2 := (i 1).isLt
  have hN : cfg2.N = 4 := N_2
  obtain ⟨t, ht⟩ : ∃ t : Fin cfg2.N, t.val = (i 0).val / 4096 := ⟨⟨(i 0).val / 4096, by rw [hN]; omega⟩, rfl⟩
  obtain ⟨-, -, -, -, -, -, -, -, -, -, -, -, e0, e1⟩ := blockIndex t
  refine ⟨t, flush2_6 t, ?_⟩
  rw [mem_blk]
  intro a
  match a with
  | ⟨0, _⟩ => show win2_6.index t (0 : Fin 2) * 4096 ≤ (i 0).val ∧ (i 0).val < win2_6.index t (0 : Fin 2) * 4096 + 4096; omega
  | ⟨1, _⟩ => show win2_6.index t (1 : Fin 2) * 2 ≤ (i 1).val ∧ (i 1).val < win2_6.index t (1 : Fin 2) * 2 + 2; omega

/-- REGION 2: the document head's output array after the region is `max((d1 + d2) · Wᵀ + b, 0) · cWᵀ + cb` of the arrays
    the region finds in its input windows, the two bias rows being the bias vectors laid out as one row. -/
theorem value (c : Dev nD) (b : Cert.Layers.FA Cert.ReferenceIdeal.S256) (cb : Cert.Layers.FA Cert.ReferenceIdeal.S2)
    (hb : V c main_v60 = broadcastInDim Cert.ReferenceIdeal.S1x256 ![1] Cert.ReferenceIdeal.Gen.bcast_S256_S1x256_1 b)
    (hcb : V c main_v61 = broadcastInDim Cert.ReferenceIdeal.S1x2 ![1] Cert.ReferenceIdeal.Gen.bcast_S2_S1x2_1 cb) :
    (dat2 (F := Ideal) V c).arrAt 6 cfg2.N
      = Cert.Layers.mlpCls (V c main_v44) (V c main_v57) (V c main_v58) b (V c main_v59) cb :=
  (dat2 (F := Ideal) V c).arrAt_eq_of_cover 6 (Cert.Layers.mlpCls (V c main_v44) (V c main_v57) (V c main_v58) b (V c main_v59) cb)
    (fun t _ => flushed_eq V c b cb hb hcb t) cover

end Cert.KernelIdeal.Region2

end
-- ==== Proof.RefIs.lean ====
/-
  The reference's result is the network `Cert.Layers.model` of its fifteen inputs: its run's composed term, opened, is
  the layers' composition spelt out.
-/
import proofs.«163003_j41652592836980_1_alg».proof.Proof.Gen.ReferenceIdeal.Run
import proofs.«163003_j41652592836980_1_alg».proof.Proof.Layers

set_option maxRecDepth 16384

noncomputable section

namespace Cert.ReferenceIdeal.RefValue

open Cert.ReferenceIdeal Cert.ReferenceIdeal.Gen Idealize.ShloMosaic Idealize.ShloMosaic.TcCoe Idealize.SL.Sem

/-- The reference run's result term at the extended reals is `model` of the argument arrays. -/
theorem res_eq (m : (ℓ : Loc nD τ sig) → Buf (Elt Ideal) ℓ) (c : Dev nD) :
    Cert.ReferenceIdeal.Value.res_main_v98 (F := Ideal) m c
      = Cert.Layers.model (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) := by
  unfold Cert.ReferenceIdeal.Value.res_main_v98 Cert.Layers.model Cert.Layers.mlpCls Cert.Layers.spmmDoc Cert.Layers.residLn
    Cert.Layers.layerNorm Cert.Layers.centred Cert.Layers.rowMean Cert.Layers.residMix Cert.Layers.linRelu Cert.Layers.spmmWord
  rfl

end Cert.ReferenceIdeal.RefValue

end
-- ==== Proof.lean ====
/-
  The word-graph network with document pooling, as three row-blocked kernels between host-side sparse products, against
  its plain reference: both compute, over the extended reals, ONE function `Cert.Layers.model` of the fifteen inputs.

  The sparse products (gather a row per edge, scale it, add it into its target row) are the same host operations in
  both programs and are carried as opaque functions. Each kernel applies a row-wise dense layer to blocks of rows — a
  rectified matrix product; a residual mix followed by the layer normalisation of every row; a two-layer head — and the
  reference applies the same layer to the whole array: a row of the result depends on that row of the operands only, a
  matrix product onto a zero accumulator is the host's product, a lane sum is the host's sum, a change of float format
  is the identity, and a bias vector reshaped to one row is the vector broadcast to one row. So every block of a
  kernel's output is the block of the layer's whole-array function (Region0, Region1, Region2), the arrays between the
  kernels are the host operations of those (KHost), and the reference's result term is the same composition (RefIs).
-/
import proofs.«163003_j41652592836980_1_alg».proof.Defs
import proofs.«163003_j41652592836980_1_alg».proof.Proof.Gen.Kernel
import proofs.«163003_j41652592836980_1_alg».proof.Proof.Gen.Kernel.Skeleton
import proofs.«163003_j41652592836980_1_alg».proof.Proof.Gen.Kernel.Launch
import proofs.«163003_j41652592836980_1_alg».proof.Proof.Gen.Kernel.Points
import proofs.«163003_j41652592836980_1_alg».proof.Proof.Gen.Kernel.Frame
import proofs.«163003_j41652592836980_1_alg».proof.Proof.Gen.KernelIdeal
import proofs.«163003_j41652592836980_1_alg».proof.Proof.Gen.KernelIdeal.Skeleton
import proofs.«163003_j41652592836980_1_alg».proof.Proof.Gen.KernelIdeal.Launch
import proofs.«163003_j41652592836980_1_alg».proof.Proof.Gen.KernelIdeal.Points
import proofs.«163003_j41652592836980_1_alg».proof.Proof.Gen.KernelIdeal.Frame
import proofs.«163003_j41652592836980_1_alg».proof.Proof.Gen.ReferenceIdeal
import proofs.«163003_j41652592836980_1_alg».proof.Proof.Gen.Pre_finite_inputs
import proofs.«163003_j41652592836980_1_alg».proof.Proof.Gen.ReferenceIdeal.Run
import proofs.«163003_j41652592836980_1_alg».proof.Proof.Gen.ReferenceIdeal.Read
import proofs.«163003_j41652592836980_1_alg».proof.Proof.KRun
import proofs.«163003_j41652592836980_1_alg».proof.Proof.KHost
import proofs.«163003_j41652592836980_1_alg».proof.Proof.Region0
import proofs.«163003_j41652592836980_1_alg».proof.Proof.Region1
import proofs.«163003_j41652592836980_1_alg».proof.Proof.Region2
import proofs.«163003_j41652592836980_1_alg».proof.Proof.RefIs
import Idealize.ShloMosaic.Adequacy
import Idealize.ShloMosaic.Init

set_option maxRecDepth 16384

noncomputable section

namespace Cert.Proof

open Idealize.ShloMosaic Idealize.ShloMosaic.TcCoe Idealize.SL.Sem

/-! ## The kernel program's result is the network of its inputs -/

section KernelValue

open Cert.KernelIdeal Cert.KernelIdeal.Gen Cert.KernelIdeal.HostRead

variable (m : (ℓ : Loc nD τ sig) → Buf (Elt Ideal) ℓ) (ρ : Dev nD → PrngReg)

/-- Region 0's output array: the first word layer of the sparse product of the embedding table. -/
theorem word1 (c : Dev nD) : W2 m ρ c (Proc.devRef .tc main_v14)
    = Cert.Layers.linRelu (Cert.Layers.spmmWord (m ((c : Thread nD τ).loc main_arg0)) (m ((c : Thread nD τ).loc main_arg1)) (m ((c : Thread nD τ).loc main_arg2)) (m ((c : Thread nD τ).loc main_arg6)))
        (transpose Cert.ReferenceIdeal.S256x256 [1, 0] (m ((c : Thread nD τ).loc main_arg7)) Cert.ReferenceIdeal.Gen.transposes_S256x256_S256x256_1_0) :=
  calc W2 m ρ c (Proc.devRef .tc main_v14)
    _ = (dat0 (V1 m ρ) c).arrAt 2 cfg0.N := W2_arr m ρ c 2
    _ = Cert.Layers.linRelu (V1 m ρ c main_v12) (V1 m ρ c main_v13) := Cert.KernelIdeal.Region0.value (V1 m ρ) c
    _ = _ := by rw [V1_v12 m ρ c, V1_v13 m ρ c]

/-- Region 1's output array: the second word layer of the sparse product of the first. -/
theorem word2 (c : Dev nD) : W4 m ρ c (Proc.devRef .tc main_v31)
    = Cert.Layers.residLn (Cert.Layers.spmmWord (m ((c : Thread nD τ).loc main_arg0)) (m ((c : Thread nD τ).loc main_arg1)) (m ((c : Thread nD τ).loc main_arg2)) (W2 m ρ c (Proc.devRef .tc main_v14)))
        (m ((c : Thread nD τ).loc main_arg6))
        (transpose Cert.ReferenceIdeal.S256x256 [1, 0] (m ((c : Thread nD τ).loc main_arg8)) Cert.ReferenceIdeal.Gen.transposes_S256x256_S256x256_1_0)
        (m ((c : Thread nD τ).loc main_arg9)) (m ((c : Thread nD τ).loc main_arg10)) :=
  calc W4 m ρ c (Proc.devRef .tc main_v31)
    _ = (dat1 (V3 m ρ) c).arrAt 5 cfg1.N := W4_arr m ρ c 5
    _ = Cert.Layers.residLn (V3 m ρ c main_v27) (V3 m ρ c main_arg6) (V3 m ρ c main_v28) (m ((c : Thread nD τ).loc main_arg9)) (m ((c : Thread nD τ).loc main_arg10)) :=
        Cert.KernelIdeal.Region1.value (V3 m ρ) c _ _ (V3_v29 m ρ c) (V3_v30 m ρ c)
    _ = _ := by rw [V3_v27 m ρ c, V3_arg6 m ρ c, V3_v28 m ρ c]

/-- Region 2's output array, the program's result: the document head of the two pooled arrays. -/
theorem head (c : Dev nD) : W6 m ρ c (Proc.devRef .tc main_v62)
    = Cert.Layers.mlpCls (Cert.Layers.spmmDoc (m ((c : Thread nD τ).loc main_arg3)) (m ((c : Thread nD τ).loc main_arg4)) (m ((c : Thread nD τ).loc main_arg5)) (W4 m ρ c (Proc.devRef .tc main_v31)))
        (Cert.Layers.spmmDoc (m ((c : Thread nD τ).loc main_arg3)) (m ((c : Thread nD τ).loc main_arg4)) (m ((c : Thread nD τ).loc main_arg5)) (m ((c : Thread nD τ).loc main_arg6)))
        (transpose Cert.ReferenceIdeal.S256x256 [1, 0] (m ((c : Thread nD τ).loc main_arg11)) Cert.ReferenceIdeal.Gen.transposes_S256x256_S256x256_1_0)
        (m ((c : Thread nD τ).loc main_arg12))
        (transpose Cert.ReferenceIdeal.S256x2 [1, 0] (m ((c : Thread nD τ).loc main_arg13)) Cert.ReferenceIdeal.Gen.transposes_S2x256_S256x2_1_0)
        (m ((c : Thread nD τ).loc main_arg14)) :=
  calc W6 m ρ c (Proc.devRef .tc main_v62)
    _ = (dat2 (V5 m ρ) c).arrAt 6 cfg2.N := W6_arr m ρ c 6
    _ = Cert.Layers.mlpCls (V5 m ρ c main_v44) (V5 m ρ c main_v57) (V5 m ρ c main_v58) (m ((c : Thread nD τ).loc main_arg12)) (V5 m ρ c main_v59) (m ((c : Thread nD τ).loc main_arg14)) :=
        Cert.KernelIdeal.Region2.value (V5 m ρ) c _ _ (V5_v60 m ρ c) (V5_v61 m ρ c)
    _ = _ := by rw [V5_v44 m ρ c, V5_v57 m ρ c, V5_v58 m ρ c, V5_v59 m ρ c]

/-- The kernel program's result buffer at the end of the run is the network of the launch contents of its arguments. -/
theorem kernel_value (c : Dev nD) : W6 m ρ c (Proc.devRef .tc main_v62)
    = Cert.Layers.model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [head m ρ c, word2 m ρ c, word1 m ρ c]
  rfl

end KernelValue

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- Both programs end with the network `model` of the (agreeing) argument arrays in their result buffers. -/
theorem algebraic : Cert.algebraic_KernelIdeal_ReferenceIdeal := by
  intro m ρ m' ρ' _ hagree
  refine ⟨fun c => Cert.Layers.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c => ⟨(h c).1.trans (kernel_value m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.ReferenceIdeal.RefValue.res_eq m' c, e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
